-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S2x5000x128 : Shape := ⟨3, ![2, 5000, 128]⟩
abbrev S200x10000 : Shape := ⟨2, ![200, 10000]⟩
abbrev S2x200x128 : Shape := ⟨3, ![2, 200, 128]⟩
abbrev S200x128 : Shape := ⟨2, ![200, 128]⟩
abbrev S1x200x128 : Shape := ⟨3, ![1, 200, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S2x5000x128, .f32⟩
  | .hbm, ⟨6, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S2x200x128, .f32⟩
  | .local _ .vmem, ⟨8, _⟩ => ⟨S2x200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v12 : BitVec 32 := Scalar.muli arg0 c200_i32
  let v13 : Index := Scalar.indexCast v12
  let c0_16 : Index := 0#32
  ![v13.toNat, 0]
def k0_off2 (i : grid0.Coords) : Fin 2 → Nat :=
  let c5000_i32 : BitVec 32 := 5000#32
  let arg0 : BitVec 32 := BitVec.ofNat 32 (i 0).val
  let c200_i32 : BitVec 32 := 200#32
  let v12 : BitVec 32 := Scalar.muli arg0 c200_i32
  let v15 : BitVec 32 := Scalar.addi c5000_i32 v12
  let v16 : Index := Scalar.indexCast v15
  let c0_17 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  shapeCasts_S2x5000x128_S10000x128 : S2x5000x128.ShapeCasts S10000x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S200x128 : 0 < S200x128.numel
  broadcasts_S1x128_S200x128 : S1x128.Broadcasts S200x128
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x200x128.size a ≤ S2x5000x128.size a
  hwx0_5 : ∀ i : grid0.Coords, EltTy.bits .f32 = 32 ∨ (Rect.block (s := S2x5000x128) S2x200x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S2x200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
/-
  The kernel body of the graph-convolution layer, run once at a symbolic grid point.

  At grid point `i` the body is handed two 200-row blocks of the adjacency (rows `200 i …` and rows
  `5000 + 200 i …`), the whole feature matrix `x`, the weights `W` and the bias row `b`, all in on-chip buffers, and
  one output buffer of shape 2 × 200 × 128. It forms, for each of the two adjacency blocks, the product of the block
  with `x`, multiplies by `W`, adds the matching 200 rows of `x` (read out of the resident copy at a row offset that
  depends on `i`) and the bias, rectifies, and stores the two results into the two 200 × 128 slabs of the output
  buffer. This module states what the output buffer holds afterwards as a function of the five input buffers'
  contents (`out5`), proves that the body computes it (`sound_kernel`), and from it the per-point obligation of the
  pipelined loop that feeds the body (`body_obligation`), for proof data that hold every input buffer at its block
  of the region-entry arrays and divide the adjacency array, which two windows read, into two half shares.
-/
import proofs.«100157_g13692355740361_cont_week2b_1267_20_alg».proof.Proof.Gen.Kernel.Launch
import proofs.«100157_g13692355740361_cont_week2b_1267_20_alg».proof.Proof.Gen.Kernel.Skeleton
import proofs.«100157_g13692355740361_cont_week2b_1267_20_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the kernel region is entered (whatever the program did before)
variable (Vr : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vr c (Pipeline.arrRef spec0 w))

/-! ## The rectangles the body reads and writes -/

/-- A whole adjacency block; the whole feature matrix; the whole weight matrix; the whole bias row. -/
abbrev rAdj : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
/-- The 200 rows of the feature matrix that are the residual of the first adjacency block at grid point `i`
    (rows `200 i …`), and of the second (rows `5000 + 200 i …`). -/
abbrev rResA (i : grid0.Coords) : Rect S10000x128 := Rect.unit (s := S10000x128) (k0_off1 i) S200x128.size (k0_off1_inb i)
abbrev rResB (i : grid0.Coords) : Rect S10000x128 := Rect.unit (s := S10000x128) (k0_off2 i) S200x128.size (k0_off2_inb i)
/-- The two 200 × 128 slabs of the output buffer. -/
abbrev rOut0 : Rect S2x200x128 := Rect.unit (s := S2x200x128) ![0, 0, 0] S1x200x128.size inb_S2x200x128_S1x200x128_0_0_0
abbrev rOut1 : Rect S2x200x128 := Rect.unit (s := S2x200x128) ![1, 0, 0] S1x200x128.size inb_S2x200x128_S1x200x128_1_0_0

/-! ## What the body leaves in the output buffer -/

/-- The output buffer after the body at grid point `i`, from the contents of the five input buffers: slab 0 is the
    layer's result for the first adjacency block, slab 1 for the second (the later store listed first). -/
def out5 (i : grid0.Coords) (a0 a1 : Vec F S200x10000 .f32) (x : Vec F S10000x128 .f32) (w : Vec F S128x128 .f32) (b : Vec F S1x128 .f32) :
    Vec F S2x200x128 .f32 :=
  View.canon [⟨rOut1, k0_pay1 (k0_pay4 (View.ld a1 rAdj) (View.ld x rX) (View.ld w rW) (View.ld b rB) (View.ld x (rResB i)))⟩,
    ⟨rOut0, k0_pay3 (View.ld a0 rAdj) (View.ld x rX) (View.ld w rW) (View.ld b rB) (View.ld x (rResA i))⟩]

/-- The two slabs tile the output buffer, so the two stores cover it. -/
theorem cover5 (p0 p1 : Vec F S1x200x128 .f32) (y : S2x200x128.Idx) :
    ∃ pc ∈ ([⟨rOut1, p0⟩, ⟨rOut0, p1⟩] : List (View.Piece (Elt F) S2x200x128 .f32)), y ∈ pc.1.set :=
  View.cover_of_tiled [⟨rOut1, p0⟩, ⟨rOut0, p1⟩] S1x200x128.size (by rfl) y

/-! ## The body's triple -/

set_option maxHeartbeats 4000000 in
/-- The body at grid point `i`, on whole buffers: the five inputs at given contents, the output at anything. It runs
    to the continuation with the inputs as they were and the output at `out5` of the inputs. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2x200x128 .f32) (harg6 : arg6.IsWhole)
    (a0 a1 : Vec F S200x10000 .f32) (x : Vec F S10000x128 .f32) (w : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ owns (c : Thread nD τ) arg5 fullShare b ∗ (∃ d, owns (c : Thread nD τ) arg6 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare b
            ∗ owns (c : Thread nD τ) arg6 fullShare (out5 i a0 a1 x w b)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover5 _ _)

end Cert.Kernel.Hand

end
-- ==== Proof.ObligationBits.lean ====
/-
  The proof data of the pipelined loop around the graph-convolution body, and the loop's per-point obligation.

  The loop runs the body at 25 grid points. At point `t` each of the five input buffers holds its window's block of
  the array as the region found it — the two adjacency windows are fetched afresh at every point (rows `200 t …` and
  rows `5000 + 200 t …` of the one adjacency array), the features, the weights and the bias once at the first point and
  left in place — and the output buffer is written back to rows `200 t …` of both halves of the result. The
  adjacency array is read through two windows, so each window holds one HALF share of it: enough to fetch from it,
  and the two halves together are the array again when the region ends.
-/
import proofs.«100157_g13692355740361_cont_week2b_1267_20_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Vr : (c : Dev nD) → (b : Ref sig .tc) → Buf (Elt F) ((c : Thread nD τ).loc b))

/-! ## The proof data -/

/-- On core `c`: the arrays as the region finds them; after the body at point `t` each input buffer still at its
    block and the output buffer at `out5` of the input blocks; no invariant of the body's own; the adjacency array
    held in two half shares, one per window, every other input array whole; nothing owed. -/
def dats (_ : Fin 1) (c : Dev nD) : Dat τ (Elt F) Unit ℕ (UR sig nD τ) ℕ cfg0 c where
  A w := Vr c (Pipeline.arrRef spec0 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => out5 (grid0.coords t) (iblk Vr c 0 t) (iblk Vr c 1 t) (iblk Vr c 2 t) (iblk Vr c 3 t) (iblk Vr c 4 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats Vr 0 c).A w = Vr c (Pipeline.arrRef spec0 w) := by
  dsimp only [dats]

theorem after_0 (c : Dev nD) (t : Fin cfg0.N) : (dats Vr 0 c).after 0 t = iblk Vr c 0 t := by dsimp only [dats]
theorem after_1 (c : Dev nD) (t : Fin cfg0.N) : (dats Vr 0 c).after 1 t = iblk Vr c 1 t := by dsimp only [dats]
theorem after_2 (c : Dev nD) (t : Fin cfg0.N) : (dats Vr 0 c).after 2 t = iblk Vr c 2 t := by dsimp only [dats]
theorem after_3 (c : Dev nD) (t : Fin cfg0.N) : (dats Vr 0 c).after 3 t = iblk Vr c 3 t := by dsimp only [dats]
theorem after_4 (c : Dev nD) (t : Fin cfg0.N) : (dats Vr 0 c).after 4 t = iblk Vr c 4 t := by dsimp only [dats]
theorem after_5 (c : Dev nD) (t : Fin cfg0.N) :
    (dats Vr 0 c).after 5 t = out5 (grid0.coords t) (iblk Vr c 0 t) (iblk Vr c 1 t) (iblk Vr c 2 t) (iblk Vr c 3 t) (iblk Vr c 4 t) := by
  dsimp only [dats]

/-! ## Each input buffer holds its block when the body runs

Fetched at this point or left from an earlier one: an input window that is not refetched has not moved. -/

theorem before_0 (c : Dev nD) (t : Fin cfg0.N) (d) : (dats Vr 0 c).before 0 t d = iblk Vr c 0 t :=
  ((dats Vr 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats Vr 0 c).before 1 t d = iblk Vr c 1 t :=
  ((dats Vr 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats Vr 0 c).before 2 t d = iblk Vr c 2 t :=
  ((dats Vr 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats Vr 0 c).before 3 t d = iblk Vr c 3 t :=
  ((dats Vr 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats Vr 0 c).before 4 t d = iblk Vr c 4 t :=
  ((dats Vr 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The obligation at a symbolic point -/

/-- What the loop hands the body at point `t`, the six buffers one by one, -/
def bodyPre (c : Dev nD) (t : Fin cfg0.N) : sProp 𝕄 :=
  iprop((dats Vr 0 c).Φ t.castSucc ∗ (dats Vr 0 c).owesAt () t.castSucc
    ∗ (∃ d, owns (c : Thread nD τ) (st0_0 t) fullShare ((dats Vr 0 c).before 0 t d))
    ∗ (∃ d, owns (c : Thread nD τ) (st0_1 t) fullShare ((dats Vr 0 c).before 1 t d))
    ∗ (∃ d, owns (c : Thread nD τ) (st0_2 t) fullShare ((dats Vr 0 c).before 2 t d))
    ∗ (∃ d, owns (c : Thread nD τ) (st0_3 t) fullShare ((dats Vr 0 c).before 3 t d))
    ∗ (∃ d, owns (c : Thread nD τ) (st0_4 t) fullShare ((dats Vr 0 c).before 4 t d))
    ∗ (∃ d, owns (c : Thread nD τ) (st0_5 t) fullShare ((dats Vr 0 c).before 5 t d)))

/-- and what it takes back. -/
def bodyPost (c : Dev nD) (t : Fin cfg0.N) : sProp 𝕄 :=
  iprop((dats Vr 0 c).Φ t.succ ∗ (dats Vr 0 c).owesAt () t.succ
    ∗ owns (c : Thread nD τ) (st0_0 t) fullShare ((dats Vr 0 c).after 0 t)
    ∗ owns (c : Thread nD τ) (st0_1 t) fullShare ((dats Vr 0 c).after 1 t)
    ∗ owns (c : Thread nD τ) (st0_2 t) fullShare ((dats Vr 0 c).after 2 t)
    ∗ owns (c : Thread nD τ) (st0_3 t) fullShare ((dats Vr 0 c).after 3 t)
    ∗ owns (c : Thread nD τ) (st0_4 t) fullShare ((dats Vr 0 c).after 4 t)
    ∗ owns (c : Thread nD τ) (st0_5 t) fullShare ((dats Vr 0 c).after 5 t))

/-- The body at any point: the input buffers hold their blocks, so the body's triple applies; nothing else is read. -/
theorem sound_body (c : Dev nD) (t : Fin cfg0.N) :
    bodyPre Vr c t ⊢ wp frame (wpE (defs₀ (F := F)) Variants.none c none) Set.univ (bodyAt0 t) (fun _ => bodyPost Vr c t) := by
  unfold bodyPre bodyPost bodyAt0
  simp only [before_0, before_1, before_2, before_3, before_4]
  rw [show (dats Vr 0 c).Φ t.succ = (dats Vr 0 c).Φ t.castSucc from rfl,
    show (dats Vr 0 c).owesAt () t.succ = (dats Vr 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk Vr c 0 t) (iblk Vr c 1 t) (iblk Vr c 2 t) (iblk Vr c 3 t) (iblk Vr c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The loop's obligation, at every point. -/
theorem body_obligation (c : Dev nD) : BodyObligation (dats (F := F) Vr 0 c) (defs₀ (F := F)) Variants.none () Set.univ := fun t => by
  rw [bigSep_W0, bigSep_W0]
  exact sound_body Vr c t

end Cert.Kernel.Hand

end
-- ==== Proof.LaunchBits.lean ====
/-
  The whole program's run: one reshape of the bias on the host, the kernel region, one reshape of the result.

  The program first presents the bias (128) as a 1 × 128 row, then runs the pipelined kernel region, whose result is
  a 2 × 5000 × 128 array, and last relays that array out as the 10000 × 128 result. Its run is stated segment by
  segment — host stretch, region, host stretch — with what the core holds in between: before the region every buffer
  at what the first reshape left; after it the same, but the region's result array at what the 25 write-backs
  assembled. The adjacency array is read by two windows of the region: entering, the array is divided into two half
  shares, one per window; leaving, the halves — both still at the entry contents, an input array being only read —
  are joined again. Every weakly fair execution terminates, the four argument arrays end as they began, and the
  result ends at the relayout of the region's result array.
-/
import proofs.«100157_g13692355740361_cont_week2b_1267_20_alg».proof.Proof.ObligationBits
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The buffers' contents along the program -/

/-- Core `c`'s buffers at launch, -/
abbrev V₀ (c : Dev nD) : Valuation τ sig (Elt F) := fun b => (s₀ m ρ).mem ((c : Dev nD), b)
/-- when the region is entered (the bias row has been written), -/
abbrev V₁ (c : Dev nD) : Valuation τ sig (Elt F) := StableHlo.after hostOps0 (V₀ m ρ c)
/-- the same read at a TensorCore reference. -/
abbrev Vr (c : Dev nD) (b : Ref sig .tc) : Buf (Elt F) ((c : Thread nD τ).loc b) := V₁ m ρ c b

/-- The region's result array after the last write-back. -/
abbrev outArr (c : Dev nD) : Buf (Elt F) ((cfg0.win 5).arr.view.loc (c : Thread nD τ)) := (dats (Vr m ρ) 0 c).arrAt 5 cfg0.N

/-- The buffers when the region is left: as at its entry, the result array at `outArr`. -/
abbrev V₂ (c : Dev nD) : Valuation τ sig (Elt F) :=
  Function.update (V₁ m ρ c) (Proc.devRef .tc main_call0_v1) (outArr m ρ c)

/-- The program's result when it returns: the relayout of the region's result array. -/
abbrev resultOf (c : Dev nD) : Buf (Elt F) ((c : Thread nD τ).loc main_v0) := StableHlo.after hostOps1 (V₂ m ρ c) (Proc.devRef .tc main_v0)

/-! ## The layout of the core's unscoped buffers -/

omit [FloatOps F] in
/-- The buffers behind the region's windows, each once: the adjacency (two windows), the features, the weights, the
    bias row, the result array. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0)
          ∗ (((c : Thread nD τ).loc main_arg2) ↦{fullShare} V main_arg2) ∗ (((c : Thread nD τ).loc main_call0_v0) ↦{fullShare} V main_call0_v0)
          ∗ (((c : Thread nD τ).loc main_call0_v1) ↦{fullShare} V main_call0_v1)) := by
  unfold Pipeline.arrBufs
  exact bigSep_eq_bigSepL_of_eq [main_arg1, main_arg0, main_arg2, main_call0_v0, main_call0_v1] (by decide) (by decide) _

section Shares

variable (Vr' : (c : Dev nD) → (b : Ref sig .tc) → Buf (Elt F) ((c : Thread nD τ).loc b))

theorem share_0 (c : Dev nD) : (dats Vr' 0 c).share 0 = fullShare.left := by
  unfold Dat.share; rw [if_neg (by decide)]; dsimp only [dats]
theorem share_1 (c : Dev nD) : (dats Vr' 0 c).share 1 = fullShare.right := by
  unfold Dat.share; rw [if_neg (by decide)]; dsimp only [dats]
theorem share_2 (c : Dev nD) : (dats Vr' 0 c).share 2 = fullShare := by
  unfold Dat.share; rw [if_neg (by decide)]; dsimp only [dats]
theorem share_3 (c : Dev nD) : (dats Vr' 0 c).share 3 = fullShare := by
  unfold Dat.share; rw [if_neg (by decide)]; dsimp only [dats]
theorem share_4 (c : Dev nD) : (dats Vr' 0 c).share 4 = fullShare := by
  unfold Dat.share; rw [if_neg (by decide)]; dsimp only [dats]
theorem share_5 (c : Dev nD) : (dats Vr' 0 c).share 5 = fullShare := by
  unfold Dat.share; rw [if_pos (by decide)]

/-- The windows' arrays as the pipelined loop holds them, window by window: the adjacency twice, at the two halves. -/
theorem arrays_chain (c : Dev nD) (Fw : (w : Fin cfg0.W) → Buf (Elt F) ((cfg0.win w).arr.view.loc (c : Thread nD τ))) :
    ((dats Vr' 0 c).arrays Fw : sProp 𝕄)
      = iprop((((c : Thread nD τ).loc main_arg1) ↦{fullShare.left} Fw 0) ∗ (((c : Thread nD τ).loc main_arg1) ↦{fullShare.right} Fw 1)
          ∗ (((c : Thread nD τ).loc main_arg0) ↦{fullShare} Fw 2) ∗ (((c : Thread nD τ).loc main_arg2) ↦{fullShare} Fw 3)
          ∗ (((c : Thread nD τ).loc main_call0_v0) ↦{fullShare} Fw 4) ∗ (((c : Thread nD τ).loc main_call0_v1) ↦{fullShare} Fw 5)) := by
  have hbig : ((dats Vr' 0 c).arrays Fw : sProp 𝕄)
      = bigSep Finset.univ fun w => ((((c : Thread nD τ).loc (Pipeline.arrRef spec0 w)) ↦{(dats Vr' 0 c).share w} Fw w : sProp 𝕄)) := by
    unfold Dat.arrays
    exact bigSep_congr fun w _ => by rw [(arr_whole0 w).set_eq_univ]
  rw [hbig, bigSep_W0, share_0, share_1, share_2, share_3, share_4, share_5]

end Shares

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The first host stretch: the bias presented as a row, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The two buffers the last host stretch touches: the region's result array and the program's result. -/
abbrev S1 : Finset (DevRef τ sig) := {Proc.devRef .tc main_call0_v1, Proc.devRef .tc main_v0}

/-- The five buffers the last host stretch leaves alone, as the region's entry found them. -/
abbrev rest5 (c : Dev nD) : sProp 𝕄 :=
  iprop((((c : Thread nD τ).loc main_arg0) ↦{fullShare} Vr m ρ c main_arg0) ∗ (((c : Thread nD τ).loc main_arg1) ↦{fullShare} Vr m ρ c main_arg1)
    ∗ (((c : Thread nD τ).loc main_arg2) ↦{fullShare} Vr m ρ c main_arg2) ∗ (((c : Thread nD τ).loc main_arg3) ↦{fullShare} Vr m ρ c main_arg3)
    ∗ (((c : Thread nD τ).loc main_call0_v0) ↦{fullShare} Vr m ρ c main_call0_v0))

/-- The last host stretch: the relayout of the region's result array into the program's result. -/
def seg1 : Pipeline.HostSeg (Name := ℕ) (U := UR sig nD τ) (pcfgs (F := F)) defs₀ 𝒱₀ L lv :=
  Pipeline.HostSeg.ofOps _ _ _ _ _ S1 hostOps1
    (by intro op h; cases h with | head => exact Finset.Subset.refl _ | tail _ h => exact nomatch h)
    (by intro _ h; (repeat (cases h with | head => rfl | tail _ h => ?_)); exact nomatch h) (V₂ m ρ)
    (fun c => iprop(rest5 m ρ c ∗ R c))

/-! ## The region -/

section AtEnds

variable (Vr' : (c : Dev nD) → (b : Ref sig .tc) → Buf (Elt F) ((c : Thread nD τ).loc b))

/-- An input array is only read: after the last point it holds what the region found. -/
theorem arrAtN_0 (c : Dev nD) : (dats Vr' 0 c).arrAt 0 cfg0.N = Vr' c main_arg1 := ((dats Vr' 0 c).arrAt_in 0 (by decide) _).trans (A_eq Vr' c 0)
theorem arrAtN_1 (c : Dev nD) : (dats Vr' 0 c).arrAt 1 cfg0.N = Vr' c main_arg1 := ((dats Vr' 0 c).arrAt_in 1 (by decide) _).trans (A_eq Vr' c 1)
theorem arrAtN_2 (c : Dev nD) : (dats Vr' 0 c).arrAt 2 cfg0.N = Vr' c main_arg0 := ((dats Vr' 0 c).arrAt_in 2 (by decide) _).trans (A_eq Vr' c 2)
theorem arrAtN_3 (c : Dev nD) : (dats Vr' 0 c).arrAt 3 cfg0.N = Vr' c main_arg2 := ((dats Vr' 0 c).arrAt_in 3 (by decide) _).trans (A_eq Vr' c 3)
theorem arrAtN_4 (c : Dev nD) : (dats Vr' 0 c).arrAt 4 cfg0.N = Vr' c main_call0_v0 := ((dats Vr' 0 c).arrAt_in 4 (by decide) _).trans (A_eq Vr' c 4)
theorem arrAt0_0 (c : Dev nD) : (dats Vr' 0 c).arrAt 0 0 = Vr' c main_arg1 := A_eq Vr' c 0
theorem arrAt0_1 (c : Dev nD) : (dats Vr' 0 c).arrAt 1 0 = Vr' c main_arg1 := A_eq Vr' c 1
theorem arrAt0_2 (c : Dev nD) : (dats Vr' 0 c).arrAt 2 0 = Vr' c main_arg0 := A_eq Vr' c 2
theorem arrAt0_3 (c : Dev nD) : (dats Vr' 0 c).arrAt 3 0 = Vr' c main_arg2 := A_eq Vr' c 3
theorem arrAt0_4 (c : Dev nD) : (dats Vr' 0 c).arrAt 4 0 = Vr' c main_call0_v0 := A_eq Vr' c 4
theorem arrAt0_5 (c : Dev nD) : (dats Vr' 0 c).arrAt 5 0 = Vr' c main_call0_v1 := A_eq Vr' c 5

end AtEnds

omit [FloatOps F] in
/-- The two buffers of the last host stretch, one by one. -/
theorem held_S1 (c : Dev nD) (V : Valuation τ sig (Elt F)) :
    (StableHlo.held (c : Thread nD τ) S1 V : sProp 𝕄)
      = iprop((((c : Thread nD τ).loc main_call0_v1) ↦{fullShare} V (Proc.devRef .tc main_call0_v1))
          ∗ (((c : Thread nD τ).loc main_v0) ↦{fullShare} V (Proc.devRef .tc main_v0))) := by
  unfold StableHlo.held
  rw [bigSep_insert (by rw [Finset.mem_singleton]; exact StableHlo.devRef_ne_of_ne (by decide)), BI.bigSep_singleton]
  rfl

theorem V₂_out (c : Dev nD) : V₂ m ρ c (Proc.devRef .tc main_call0_v1) = outArr m ρ c := Function.update_self ..
theorem V₂_res (c : Dev nD) : V₂ m ρ c (Proc.devRef .tc main_v0) = V₁ m ρ c (Proc.devRef .tc main_v0) :=
  Function.update_of_ne (StableHlo.devRef_ne_of_ne (by decide)) ..

set_option backward.isDefEq.respectTransparency.types false in
/-- The region: entered from what the first host stretch left — the adjacency array divided between its two
    windows, the other windowed arrays whole, the bias vector and the program's result bypassing —, left with the
    halves joined and the result array at what the write-backs assembled. -/
def reg0 : Pipeline.RegionSeg (pcfgs (F := F)) adm (dats (Vr m ρ)) () defs₀ 𝒱₀ L lv 0 where
  win := winFacts₀0
  block_pos := block_pos0
  stage_whole := stage_whole0
  K := PEmpty
  osem := fun k => k.elim
  ho := Pipeline.OwnSemFacts.none _
  hbody c := (body_obligation (Vr m ρ) c).loose
  hwaits := Pipeline.hwaits_of_owed_zero _ _ _ _ L lv 0 fun _ _ => rfl
  pre c := iprop(StableHlo.held (c : Thread nD τ) (Pipeline.ucRefs τ sig) (V₁ m ρ c) ∗ R c)
  post c := iprop(StableHlo.held (c : Thread nD τ) S1 (V₂ m ρ c) ∗ (rest5 m ρ c ∗ R c))
  X c := iprop(emp)
  Y c := iprop(emp)
  Z c := iprop((((c : Thread nD τ).loc main_arg3) ↦{fullShare} Vr m ρ c main_arg3) ∗ (((c : Thread nD τ).loc main_v0) ↦{fullShare} Vr m ρ c main_v0))
  hentry c := by
    rw [show StableHlo.held (c : Thread nD τ) (Pipeline.ucRefs τ sig) (V₁ m ρ c) = unscopedBufs c (Vr m ρ c) from (Pipeline.unscopedBufs_held c _).symm,
      Pipeline.unscopedBufs_split₀ cfgs 0 winFacts₀0.arr_unscoped c (Vr m ρ c), unscopedRest0_eq c (Vr m ρ c), arrBufs_chain c (Vr m ρ c),
      arrays_chain (Vr m ρ) c]
    rw [arrAt0_0, arrAt0_1, arrAt0_2, arrAt0_3, arrAt0_4, arrAt0_5]
    iintro ⟨⟨⟨⟨H1, H0, H2, H4, H5⟩, H3, H6⟩, HO⟩, -, -⟩
    ihave H1 := (pointsTo_share (PosShare.mem_left_op_right fullShare)).1 $$ H1
    icases H1 with ⟨H1l, H1r⟩
    imodintro
    isplitl [H1l H1r H0 H2 H4 H5]
    · isplitl [H1l]; · iexact H1l
      isplitl [H1r]; · iexact H1r
      isplitl [H0]; · iexact H0
      isplitl [H2]; · iexact H2
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H3]; · iexact H3
    iexact H6
  hin c := by
    rw [show (dats (Vr m ρ) 0 c).Φ 0 = iprop(emp) from rfl]
    iintro -; iempintro
  hout c := by
    rw [Pipeline.ownSems0_none, scopedRest0_eq, show (dats (Vr m ρ) 0 c).Φ (Fin.last cfg0.N) = iprop(emp) from rfl]
    iintro -
    isplitr; · iempintro
    isplitr <;> iempintro
  hexit c := by
    rw [arrays_chain (Vr m ρ) c, held_S1, V₂_out, V₂_res]
    rw [arrAtN_0, arrAtN_1, arrAtN_2, arrAtN_3, arrAtN_4]
    iintro ⟨⟨H1l, H1r, H0, H2, H4, H5⟩, HO, -, H3, H6⟩
    ihave H1 := (pointsTo_share (PosShare.mem_left_op_right fullShare)).2 $$ [H1l H1r]
    · isplitl [H1l] <;> iassumption
    imodintro
    isplitl [H5 H6]
    · isplitl [H5]; · iexact H5
      iexact H6
    isplitr [HO]
    · isplitl [H0]; · iexact H0
      isplitl [H1]; · iexact H1
      isplitl [H2]; · iexact H2
      isplitl [H3]; · iexact H3
      iexact H4
    · unfold Pipeline.Dat.owesAt Pipeline.owesWithin
      icases HO with ⟨%W, -, HO⟩; iexists W; iexact HO

/-! ## The run -/

/-- The program as its three segments. -/
abbrev segs : List (Pipeline.Seg (pcfgs (F := F)) adm (dats (Vr m ρ)) () defs₀ 𝒱₀ L lv) :=
  [.host (seg0 m ρ), .region (reg0 m ρ), .host (seg1 m ρ)]

/-- What the core holds when the program returns: the result and the region's result array after the relayout,
    the other five buffers as the region's entry found them. -/
abbrev Tₙ (c : Dev nD) : sProp 𝕄 :=
  iprop(StableHlo.held (c : Thread nD τ) S1 (StableHlo.after hostOps1 (V₂ m ρ c)) ∗ rest5 m ρ c)

/-- The launch element: the pipelined loop's staging cells and transfers, nothing else. -/
def u₀ : UR sig nD τ := initOf (Pipeline.cells cfgs cellOf_inj) (Pipeline.launchToks cfgs cellOf_inj)

/-- The final memory: the result at the relayout of the region's result array, the four arguments as the region's
    entry found them. -/
def QC : PUnit × MemSt nD τ sig (Elt F) → Prop := fun r => ∀ c : Dev nD,
  r.2.mem ((c : Thread nD τ).loc main_v0) = resultOf m ρ c
    ∧ r.2.mem ((c : Thread nD τ).loc main_arg0) = Vr m ρ c main_arg0
    ∧ r.2.mem ((c : Thread nD τ).loc main_arg1) = Vr m ρ c main_arg1
    ∧ r.2.mem ((c : Thread nD τ).loc main_arg2) = Vr m ρ c main_arg2
    ∧ r.2.mem ((c : Thread nD τ).loc main_arg3) = Vr m ρ c main_arg3

set_option backward.isDefEq.respectTransparency.types false in
/-- From any memory with every counter at zero: every weakly fair execution of the program terminates, nothing
    faulting, in a memory as `QC` says. -/
theorem run_main : θ_run defs (onTc (τ := τ) (main (F := F))) (s₀ m ρ) (QC m ρ) :=
  Pipeline.θ_run_regions_kit (pcfgs (F := F)) adm (dats (Vr m ρ)) () cellOf_inj EP defs₀ 𝒱₀ L lv m ρ main (segs m ρ)
    (fun c Q => by rw [main_segs adm (dats (Vr m ρ)) () 𝒱₀ L lv (seg0 m ρ) (seg1 m ρ) (reg0 m ρ) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun c => by
      show iprop(StableHlo.held (c : Thread nD τ) S1 (StableHlo.after hostOps1 (V₂ m ρ c)) ∗ (rest5 m ρ c ∗ R c)) ⊢ _
      iintro ⟨Hh, Hr, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from
        Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v0) = resultOf m ρ c
      ∧ s.mem ((c : Thread nD τ).loc main_arg0) = Vr m ρ c main_arg0
      ∧ s.mem ((c : Thread nD τ).loc main_arg1) = Vr m ρ c main_arg1
      ∧ s.mem ((c : Thread nD τ).loc main_arg2) = Vr m ρ c main_arg2
      ∧ s.mem ((c : Thread nD τ).loc main_arg3) = Vr m ρ c main_arg3)
    (hfin := fun c s' => by
      dsimp only [Tₙ]; rw [held_S1]
      iintro ⟨⟨⟨-, Hv⟩, H0, H1, H2, H3, -⟩, HSI⟩
      icombine HSI Hv gives %hv
      icombine HSI H0 gives %h0
      icombine HSI H1 gives %h1
      icombine HSI H2 gives %h2
      icombine HSI H3 gives %h3
      imodintro
      isplitr
      · ipureintro
        exact ⟨Buf.eq_of_forall_mem_univ hv, Buf.eq_of_forall_mem_univ h0, Buf.eq_of_forall_mem_univ h1, Buf.eq_of_forall_mem_univ h2,
          Buf.eq_of_forall_mem_univ h3⟩
      iexact HSI)
    (hQ := fun _ h => h)

/-! ## The frame -/

/-- The first host stretch writes only the bias row: each argument reaches the region as launched. -/
theorem not_written (b : Ref sig .tc) (hb : b ≠ main_call0_v0) : ∀ op ∈ (hostOps0 (F := F)), Proc.devRef .tc b ∉ op.writes := by
  intro op hop
  rw [List.mem_singleton] at hop
  subst hop
  rw [StableHlo.reshape_writes, Finset.mem_singleton]
  exact StableHlo.devRef_ne_of_ne hb
theorem Vr_arg0 (c : Dev nD) : Vr m ρ c main_arg0 = m ((c : Thread nD τ).loc main_arg0) :=
  StableHlo.after_of_forall_not_mem (b := Proc.devRef .tc main_arg0) hostOps0 (V₀ m ρ c) (not_written main_arg0 (by decide))
theorem Vr_arg1 (c : Dev nD) : Vr m ρ c main_arg1 = m ((c : Thread nD τ).loc main_arg1) :=
  StableHlo.after_of_forall_not_mem (b := Proc.devRef .tc main_arg1) hostOps0 (V₀ m ρ c) (not_written main_arg1 (by decide))
theorem Vr_arg2 (c : Dev nD) : Vr m ρ c main_arg2 = m ((c : Thread nD τ).loc main_arg2) :=
  StableHlo.after_of_forall_not_mem (b := Proc.devRef .tc main_arg2) hostOps0 (V₀ m ρ c) (not_written main_arg2 (by decide))
theorem Vr_arg3 (c : Dev nD) : Vr m ρ c main_arg3 = m ((c : Thread nD τ).loc main_arg3) :=
  StableHlo.after_of_forall_not_mem (b := Proc.devRef .tc main_arg3) hostOps0 (V₀ m ρ c) (not_written main_arg3 (by decide))

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.1.trans (Vr_arg0 m ρ c), (h c).2.2.1.trans (Vr_arg1 m ρ c),
    (h c).2.2.2.1.trans (Vr_arg2 m ρ c), (h c).2.2.2.2.trans (Vr_arg3 m ρ c)⟩) (run_main m ρ)

end Cert.Kernel.Hand

end
-- ==== Proof.BodyIdeal.lean ====
/-
  The kernel body of the graph-convolution layer, run once at a symbolic grid point.

  At grid point `i` the body is handed two 200-row blocks of the adjacency (rows `200 i …` and rows
  `5000 + 200 i …`), the whole feature matrix `x`, the weights `W` and the bias row `b`, all in on-chip buffers, and
  one output buffer of shape 2 × 200 × 128. It forms, for each of the two adjacency blocks, the product of the block
  with `x`, multiplies by `W`, adds the matching 200 rows of `x` (read out of the resident copy at a row offset that
  depends on `i`) and the bias, rectifies, and stores the two results into the two 200 × 128 slabs of the output
  buffer. This module states what the output buffer holds afterwards as a function of the five input buffers'
  contents (`out5`), proves that the body computes it (`sound_kernel`), and from it the per-point obligation of the
  pipelined loop that feeds the body (`body_obligation`), for proof data that hold every input buffer at its block
  of the region-entry arrays and divide the adjacency array, which two windows read, into two half shares.
-/
import proofs.«100157_g13692355740361_cont_week2b_1267_20_alg».proof.Proof.Gen.KernelIdeal.Launch
import proofs.«100157_g13692355740361_cont_week2b_1267_20_alg».proof.Proof.Gen.KernelIdeal.Skeleton
import proofs.«100157_g13692355740361_cont_week2b_1267_20_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the kernel region is entered (whatever the program did before)
variable (Vr : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vr c (Pipeline.arrRef spec0 w))

/-! ## The rectangles the body reads and writes -/

/-- A whole adjacency block; the whole feature matrix; the whole weight matrix; the whole bias row. -/
abbrev rAdj : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
/-- The 200 rows of the feature matrix that are the residual of the first adjacency block at grid point `i`
    (rows `200 i …`), and of the second (rows `5000 + 200 i …`). -/
abbrev rResA (i : grid0.Coords) : Rect S10000x128 := Rect.unit (s := S10000x128) (k0_off1 i) S200x128.size (k0_off1_inb i)
abbrev rResB (i : grid0.Coords) : Rect S10000x128 := Rect.unit (s := S10000x128) (k0_off2 i) S200x128.size (k0_off2_inb i)
/-- The two 200 × 128 slabs of the output buffer. -/
abbrev rOut0 : Rect S2x200x128 := Rect.unit (s := S2x200x128) ![0, 0, 0] S1x200x128.size inb_S2x200x128_S1x200x128_0_0_0
abbrev rOut1 : Rect S2x200x128 := Rect.unit (s := S2x200x128) ![1, 0, 0] S1x200x128.size inb_S2x200x128_S1x200x128_1_0_0

/-! ## What the body leaves in the output buffer -/

/-- The output buffer after the body at grid point `i`, from the contents of the five input buffers: slab 0 is the
    layer's result for the first adjacency block, slab 1 for the second (the later store listed first). -/
def out5 (i : grid0.Coords) (a0 a1 : Vec F S200x10000 .f32) (x : Vec F S10000x128 .f32) (w : Vec F S128x128 .f32) (b : Vec F S1x128 .f32) :
    Vec F S2x200x128 .f32 :=
  View.canon [⟨rOut1, k0_pay1 (k0_pay4 (View.ld a1 rAdj) (View.ld x rX) (View.ld w rW) (View.ld b rB) (View.ld x (rResB i)))⟩,
    ⟨rOut0, k0_pay3 (View.ld a0 rAdj) (View.ld x rX) (View.ld w rW) (View.ld b rB) (View.ld x (rResA i))⟩]

/-- The two slabs tile the output buffer, so the two stores cover it. -/
theorem cover5 (p0 p1 : Vec F S1x200x128 .f32) (y : S2x200x128.Idx) :
    ∃ pc ∈ ([⟨rOut1, p0⟩, ⟨rOut0, p1⟩] : List (View.Piece (Elt F) S2x200x128 .f32)), y ∈ pc.1.set :=
  View.cover_of_tiled [⟨rOut1, p0⟩, ⟨rOut0, p1⟩] S1x200x128.size (by rfl) y

/-! ## The body's triple -/

set_option maxHeartbeats 4000000 in
/-- The body at grid point `i`, on whole buffers: the five inputs at given contents, the output at anything. It runs
    to the continuation with the inputs as they were and the output at `out5` of the inputs. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2x200x128 .f32) (harg6 : arg6.IsWhole)
    (a0 a1 : Vec F S200x10000 .f32) (x : Vec F S10000x128 .f32) (w : Vec F S128x128 .f32) (b : Vec F S1x128 .f32) (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare w ∗ owns (c : Thread nD τ) arg5 fullShare b ∗ (∃ d, owns (c : Thread nD τ) arg6 fullShare d)
        ∗ (iprop(owns (c : Thread nD τ) arg1 fullShare a0 ∗ owns (c : Thread nD τ) arg2 fullShare a1 ∗ owns (c : Thread nD τ) arg3 fullShare x
            ∗ owns (c : Thread nD τ) arg4 fullShare w ∗ owns (c : Thread nD τ) arg5 fullShare b
            ∗ owns (c : Thread nD τ) arg6 fullShare (out5 i a0 a1 x w b)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover5 _ _)

end Cert.KernelIdeal.Hand

end
-- ==== Proof.ObligationIdeal.lean ====
/-
  The proof data of the pipelined loop around the graph-convolution body, and the loop's per-point obligation.

  The loop runs the body at 25 grid points. At point `t` each of the five input buffers holds its window's block of
  the array as the region found it — the two adjacency windows are fetched afresh at every point (rows `200 t …` and
  rows `5000 + 200 t …` of the one adjacency array), the features, the weights and the bias once at the first point and
  left in place — and the output buffer is written back to rows `200 t …` of both halves of the result. The
  adjacency array is read through two windows, so each window holds one HALF share of it: enough to fetch from it,
  and the two halves together are the array again when the region ends.
-/
import proofs.«100157_g13692355740361_cont_week2b_1267_20_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Vr : (c : Dev nD) → (b : Ref sig .tc) → Buf (Elt F) ((c : Thread nD τ).loc b))

/-! ## The proof data -/

/-- On core `c`: the arrays as the region finds them; after the body at point `t` each input buffer still at its
    block and the output buffer at `out5` of the input blocks; no invariant of the body's own; the adjacency array
    held in two half shares, one per window, every other input array whole; nothing owed. -/
def dats (_ : Fin 1) (c : Dev nD) : Dat τ (Elt F) Unit ℕ (UR sig nD τ) ℕ cfg0 c where
  A w := Vr c (Pipeline.arrRef spec0 w)
  after w t := match w with
    | ⟨0, _⟩ => iblk Vr c 0 t
    | ⟨1, _⟩ => iblk Vr c 1 t
    | ⟨2, _⟩ => iblk Vr c 2 t
    | ⟨3, _⟩ => iblk Vr c 3 t
    | ⟨4, _⟩ => iblk Vr c 4 t
    | ⟨5, _⟩ => out5 (grid0.coords t) (iblk Vr c 0 t) (iblk Vr c 1 t) (iblk Vr c 2 t) (iblk Vr c 3 t) (iblk Vr c 4 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats Vr 0 c).A w = Vr c (Pipeline.arrRef spec0 w) := by
  dsimp only [dats]

theorem after_0 (c : Dev nD) (t : Fin cfg0.N) : (dats Vr 0 c).after 0 t = iblk Vr c 0 t := by dsimp only [dats]
theorem after_1 (c : Dev nD) (t : Fin cfg0.N) : (dats Vr 0 c).after 1 t = iblk Vr c 1 t := by dsimp only [dats]
theorem after_2 (c : Dev nD) (t : Fin cfg0.N) : (dats Vr 0 c).after 2 t = iblk Vr c 2 t := by dsimp only [dats]
theorem after_3 (c : Dev nD) (t : Fin cfg0.N) : (dats Vr 0 c).after 3 t = iblk Vr c 3 t := by dsimp only [dats]
theorem after_4 (c : Dev nD) (t : Fin cfg0.N) : (dats Vr 0 c).after 4 t = iblk Vr c 4 t := by dsimp only [dats]
theorem after_5 (c : Dev nD) (t : Fin cfg0.N) :
    (dats Vr 0 c).after 5 t = out5 (grid0.coords t) (iblk Vr c 0 t) (iblk Vr c 1 t) (iblk Vr c 2 t) (iblk Vr c 3 t) (iblk Vr c 4 t) := by
  dsimp only [dats]

/-! ## Each input buffer holds its block when the body runs

Fetched at this point or left from an earlier one: an input window that is not refetched has not moved. -/

theorem before_0 (c : Dev nD) (t : Fin cfg0.N) (d) : (dats Vr 0 c).before 0 t d = iblk Vr c 0 t :=
  ((dats Vr 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats Vr 0 c).before 1 t d = iblk Vr c 1 t :=
  ((dats Vr 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats Vr 0 c).before 2 t d = iblk Vr c 2 t :=
  ((dats Vr 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats Vr 0 c).before 3 t d = iblk Vr c 3 t :=
  ((dats Vr 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats Vr 0 c).before 4 t d = iblk Vr c 4 t :=
  ((dats Vr 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The obligation at a symbolic point -/

/-- What the loop hands the body at point `t`, the six buffers one by one, -/
def bodyPre (c : Dev nD) (t : Fin cfg0.N) : sProp 𝕄 :=
  iprop((dats Vr 0 c).Φ t.castSucc ∗ (dats Vr 0 c).owesAt () t.castSucc
    ∗ (∃ d, owns (c : Thread nD τ) (st0_0 t) fullShare ((dats Vr 0 c).before 0 t d))
    ∗ (∃ d, owns (c : Thread nD τ) (st0_1 t) fullShare ((dats Vr 0 c).before 1 t d))
    ∗ (∃ d, owns (c : Thread nD τ) (st0_2 t) fullShare ((dats Vr 0 c).before 2 t d))
    ∗ (∃ d, owns (c : Thread nD τ) (st0_3 t) fullShare ((dats Vr 0 c).before 3 t d))
    ∗ (∃ d, owns (c : Thread nD τ) (st0_4 t) fullShare ((dats Vr 0 c).before 4 t d))
    ∗ (∃ d, owns (c : Thread nD τ) (st0_5 t) fullShare ((dats Vr 0 c).before 5 t d)))

/-- and what it takes back. -/
def bodyPost (c : Dev nD) (t : Fin cfg0.N) : sProp 𝕄 :=
  iprop((dats Vr 0 c).Φ t.succ ∗ (dats Vr 0 c).owesAt () t.succ
    ∗ owns (c : Thread nD τ) (st0_0 t) fullShare ((dats Vr 0 c).after 0 t)
    ∗ owns (c : Thread nD τ) (st0_1 t) fullShare ((dats Vr 0 c).after 1 t)
    ∗ owns (c : Thread nD τ) (st0_2 t) fullShare ((dats Vr 0 c).after 2 t)
    ∗ owns (c : Thread nD τ) (st0_3 t) fullShare ((dats Vr 0 c).after 3 t)
    ∗ owns (c : Thread nD τ) (st0_4 t) fullShare ((dats Vr 0 c).after 4 t)
    ∗ owns (c : Thread nD τ) (st0_5 t) fullShare ((dats Vr 0 c).after 5 t))

/-- The body at any point: the input buffers hold their blocks, so the body's triple applies; nothing else is read. -/
theorem sound_body (c : Dev nD) (t : Fin cfg0.N) :
    bodyPre Vr c t ⊢ wp frame (wpE (defs₀ (F := F)) Variants.none c none) Set.univ (bodyAt0 t) (fun _ => bodyPost Vr c t) := by
  unfold bodyPre bodyPost bodyAt0
  simp only [before_0, before_1, before_2, before_3, before_4]
  rw [show (dats Vr 0 c).Φ t.succ = (dats Vr 0 c).Φ t.castSucc from rfl,
    show (dats Vr 0 c).owesAt () t.succ = (dats Vr 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk Vr c 0 t) (iblk Vr c 1 t) (iblk Vr c 2 t) (iblk Vr c 3 t) (iblk Vr c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The loop's obligation, at every point. -/
theorem body_obligation (c : Dev nD) : BodyObligation (dats (F := F) Vr 0 c) (defs₀ (F := F)) Variants.none () Set.univ := fun t => by
  rw [bigSep_W0, bigSep_W0]
  exact sound_body Vr c t

end Cert.KernelIdeal.Hand

end
-- ==== Proof.LaunchIdeal.lean ====
/-
  The whole program's run: one reshape of the bias on the host, the kernel region, one reshape of the result.

  The program first presents the bias (128) as a 1 × 128 row, then runs the pipelined kernel region, whose result is
  a 2 × 5000 × 128 array, and last relays that array out as the 10000 × 128 result. Its run is stated segment by
  segment — host stretch, region, host stretch — with what the core holds in between: before the region every buffer
  at what the first reshape left; after it the same, but the region's result array at what the 25 write-backs
  assembled. The adjacency array is read by two windows of the region: entering, the array is divided into two half
  shares, one per window; leaving, the halves — both still at the entry contents, an input array being only read —
  are joined again. Every weakly fair execution terminates, the four argument arrays end as they began, and the
  result ends at the relayout of the region's result array.
-/
import proofs.«100157_g13692355740361_cont_week2b_1267_20_alg».proof.Proof.ObligationIdeal
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev EP : Emb (UR sig nD τ) (MT nD τ sig Unit (Elt F) ℕ (UR sig nD τ) ℕ) := emb₁

variable (m : (ℓ : Loc nD τ sig) → Buf (Elt F) ℓ) (ρ : Dev nD → PrngReg)

/-! ## The buffers' contents along the program -/

/-- Core `c`'s buffers at launch, -/
abbrev V₀ (c : Dev nD) : Valuation τ sig (Elt F) := fun b => (s₀ m ρ).mem ((c : Dev nD), b)
/-- when the region is entered (the bias row has been written), -/
abbrev V₁ (c : Dev nD) : Valuation τ sig (Elt F) := StableHlo.after hostOps0 (V₀ m ρ c)
/-- the same read at a TensorCore reference. -/
abbrev Vr (c : Dev nD) (b : Ref sig .tc) : Buf (Elt F) ((c : Thread nD τ).loc b) := V₁ m ρ c b

/-- The region's result array after the last write-back. -/
abbrev outArr (c : Dev nD) : Buf (Elt F) ((cfg0.win 5).arr.view.loc (c : Thread nD τ)) := (dats (Vr m ρ) 0 c).arrAt 5 cfg0.N

/-- The buffers when the region is left: as at its entry, the result array at `outArr`. -/
abbrev V₂ (c : Dev nD) : Valuation τ sig (Elt F) :=
  Function.update (V₁ m ρ c) (Proc.devRef .tc main_call0_v1) (outArr m ρ c)

/-- The program's result when it returns: the relayout of the region's result array. -/
abbrev resultOf (c : Dev nD) : Buf (Elt F) ((c : Thread nD τ).loc main_v0) := StableHlo.after hostOps1 (V₂ m ρ c) (Proc.devRef .tc main_v0)

/-! ## The layout of the core's unscoped buffers -/

omit [FloatOps F] in
/-- The buffers behind the region's windows, each once: the adjacency (two windows), the features, the weights, the
    bias row, the result array. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg0) ↦{fullShare} V main_arg0)
          ∗ (((c : Thread nD τ).loc main_arg2) ↦{fullShare} V main_arg2) ∗ (((c : Thread nD τ).loc main_call0_v0) ↦{fullShare} V main_call0_v0)
          ∗ (((c : Thread nD τ).loc main_call0_v1) ↦{fullShare} V main_call0_v1)) := by
  unfold Pipeline.arrBufs
  exact bigSep_eq_bigSepL_of_eq [main_arg1, main_arg0, main_arg2, main_call0_v0, main_call0_v1] (by decide) (by decide) _

section Shares

variable (Vr' : (c : Dev nD) → (b : Ref sig .tc) → Buf (Elt F) ((c : Thread nD τ).loc b))

theorem share_0 (c : Dev nD) : (dats Vr' 0 c).share 0 = fullShare.left := by
  unfold Dat.share; rw [if_neg (by decide)]; dsimp only [dats]
theorem share_1 (c : Dev nD) : (dats Vr' 0 c).share 1 = fullShare.right := by
  unfold Dat.share; rw [if_neg (by decide)]; dsimp only [dats]
theorem share_2 (c : Dev nD) : (dats Vr' 0 c).share 2 = fullShare := by
  unfold Dat.share; rw [if_neg (by decide)]; dsimp only [dats]
theorem share_3 (c : Dev nD) : (dats Vr' 0 c).share 3 = fullShare := by
  unfold Dat.share; rw [if_neg (by decide)]; dsimp only [dats]
theorem share_4 (c : Dev nD) : (dats Vr' 0 c).share 4 = fullShare := by
  unfold Dat.share; rw [if_neg (by decide)]; dsimp only [dats]
theorem share_5 (c : Dev nD) : (dats Vr' 0 c).share 5 = fullShare := by
  unfold Dat.share; rw [if_pos (by decide)]

/-- The windows' arrays as the pipelined loop holds them, window by window: the adjacency twice, at the two halves. -/
theorem arrays_chain (c : Dev nD) (Fw : (w : Fin cfg0.W) → Buf (Elt F) ((cfg0.win w).arr.view.loc (c : Thread nD τ))) :
    ((dats Vr' 0 c).arrays Fw : sProp 𝕄)
      = iprop((((c : Thread nD τ).loc main_arg1) ↦{fullShare.left} Fw 0) ∗ (((c : Thread nD τ).loc main_arg1) ↦{fullShare.right} Fw 1)
          ∗ (((c : Thread nD τ).loc main_arg0) ↦{fullShare} Fw 2) ∗ (((c : Thread nD τ).loc main_arg2) ↦{fullShare} Fw 3)
          ∗ (((c : Thread nD τ).loc main_call0_v0) ↦{fullShare} Fw 4) ∗ (((c : Thread nD τ).loc main_call0_v1) ↦{fullShare} Fw 5)) := by
  have hbig : ((dats Vr' 0 c).arrays Fw : sProp 𝕄)
      = bigSep Finset.univ fun w => ((((c : Thread nD τ).loc (Pipeline.arrRef spec0 w)) ↦{(dats Vr' 0 c).share w} Fw w : sProp 𝕄)) := by
    unfold Dat.arrays
    exact bigSep_congr fun w _ => by rw [(arr_whole0 w).set_eq_univ]
  rw [hbig, bigSep_W0, share_0, share_1, share_2, share_3, share_4, share_5]

end Shares

/-! ## The segments -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- The first host stretch: the bias presented as a row, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

/-- The two buffers the last host stretch touches: the region's result array and the program's result. -/
abbrev S1 : Finset (DevRef τ sig) := {Proc.devRef .tc main_call0_v1, Proc.devRef .tc main_v0}

/-- The five buffers the last host stretch leaves alone, as the region's entry found them. -/
abbrev rest5 (c : Dev nD) : sProp 𝕄 :=
  iprop((((c : Thread nD τ).loc main_arg0) ↦{fullShare} Vr m ρ c main_arg0) ∗ (((c : Thread nD τ).loc main_arg1) ↦{fullShare} Vr m ρ c main_arg1)
    ∗ (((c : Thread nD τ).loc main_arg2) ↦{fullShare} Vr m ρ c main_arg2) ∗ (((c : Thread nD τ).loc main_arg3) ↦{fullShare} Vr m ρ c main_arg3)
    ∗ (((c : Thread nD τ).loc main_call0_v0) ↦{fullShare} Vr m ρ c main_call0_v0))

/-- The last host stretch: the relayout of the region's result array into the program's result. -/
def seg1 : Pipeline.HostSeg (Name := ℕ) (U := UR sig nD τ) (pcfgs (F := F)) defs₀ 𝒱₀ L lv :=
  Pipeline.HostSeg.ofOps _ _ _ _ _ S1 hostOps1
    (by intro op h; cases h with | head => exact Finset.Subset.refl _ | tail _ h => exact nomatch h)
    (by intro _ h; (repeat (cases h with | head => rfl | tail _ h => ?_)); exact nomatch h) (V₂ m ρ)
    (fun c => iprop(rest5 m ρ c ∗ R c))

/-! ## The region -/

section AtEnds

variable (Vr' : (c : Dev nD) → (b : Ref sig .tc) → Buf (Elt F) ((c : Thread nD τ).loc b))

/-- An input array is only read: after the last point it holds what the region found. -/
theorem arrAtN_0 (c : Dev nD) : (dats Vr' 0 c).arrAt 0 cfg0.N = Vr' c main_arg1 := ((dats Vr' 0 c).arrAt_in 0 (by decide) _).trans (A_eq Vr' c 0)
theorem arrAtN_1 (c : Dev nD) : (dats Vr' 0 c).arrAt 1 cfg0.N = Vr' c main_arg1 := ((dats Vr' 0 c).arrAt_in 1 (by decide) _).trans (A_eq Vr' c 1)
theorem arrAtN_2 (c : Dev nD) : (dats Vr' 0 c).arrAt 2 cfg0.N = Vr' c main_arg0 := ((dats Vr' 0 c).arrAt_in 2 (by decide) _).trans (A_eq Vr' c 2)
theorem arrAtN_3 (c : Dev nD) : (dats Vr' 0 c).arrAt 3 cfg0.N = Vr' c main_arg2 := ((dats Vr' 0 c).arrAt_in 3 (by decide) _).trans (A_eq Vr' c 3)
theorem arrAtN_4 (c : Dev nD) : (dats Vr' 0 c).arrAt 4 cfg0.N = Vr' c main_call0_v0 := ((dats Vr' 0 c).arrAt_in 4 (by decide) _).trans (A_eq Vr' c 4)
theorem arrAt0_0 (c : Dev nD) : (dats Vr' 0 c).arrAt 0 0 = Vr' c main_arg1 := A_eq Vr' c 0
theorem arrAt0_1 (c : Dev nD) : (dats Vr' 0 c).arrAt 1 0 = Vr' c main_arg1 := A_eq Vr' c 1
theorem arrAt0_2 (c : Dev nD) : (dats Vr' 0 c).arrAt 2 0 = Vr' c main_arg0 := A_eq Vr' c 2
theorem arrAt0_3 (c : Dev nD) : (dats Vr' 0 c).arrAt 3 0 = Vr' c main_arg2 := A_eq Vr' c 3
theorem arrAt0_4 (c : Dev nD) : (dats Vr' 0 c).arrAt 4 0 = Vr' c main_call0_v0 := A_eq Vr' c 4
theorem arrAt0_5 (c : Dev nD) : (dats Vr' 0 c).arrAt 5 0 = Vr' c main_call0_v1 := A_eq Vr' c 5

end AtEnds

omit [FloatOps F] in
/-- The two buffers of the last host stretch, one by one. -/
theorem held_S1 (c : Dev nD) (V : Valuation τ sig (Elt F)) :
    (StableHlo.held (c : Thread nD τ) S1 V : sProp 𝕄)
      = iprop((((c : Thread nD τ).loc main_call0_v1) ↦{fullShare} V (Proc.devRef .tc main_call0_v1))
          ∗ (((c : Thread nD τ).loc main_v0) ↦{fullShare} V (Proc.devRef .tc main_v0))) := by
  unfold StableHlo.held
  rw [bigSep_insert (by rw [Finset.mem_singleton]; exact StableHlo.devRef_ne_of_ne (by decide)), BI.bigSep_singleton]
  rfl

theorem V₂_out (c : Dev nD) : V₂ m ρ c (Proc.devRef .tc main_call0_v1) = outArr m ρ c := Function.update_self ..
theorem V₂_res (c : Dev nD) : V₂ m ρ c (Proc.devRef .tc main_v0) = V₁ m ρ c (Proc.devRef .tc main_v0) :=
  Function.update_of_ne (StableHlo.devRef_ne_of_ne (by decide)) ..

set_option backward.isDefEq.respectTransparency.types false in
/-- The region: entered from what the first host stretch left — the adjacency array divided between its two
    windows, the other windowed arrays whole, the bias vector and the program's result bypassing —, left with the
    halves joined and the result array at what the write-backs assembled. -/
def reg0 : Pipeline.RegionSeg (pcfgs (F := F)) adm (dats (Vr m ρ)) () defs₀ 𝒱₀ L lv 0 where
  win := winFacts₀0
  block_pos := block_pos0
  stage_whole := stage_whole0
  K := PEmpty
  osem := fun k => k.elim
  ho := Pipeline.OwnSemFacts.none _
  hbody c := (body_obligation (Vr m ρ) c).loose
  hwaits := Pipeline.hwaits_of_owed_zero _ _ _ _ L lv 0 fun _ _ => rfl
  pre c := iprop(StableHlo.held (c : Thread nD τ) (Pipeline.ucRefs τ sig) (V₁ m ρ c) ∗ R c)
  post c := iprop(StableHlo.held (c : Thread nD τ) S1 (V₂ m ρ c) ∗ (rest5 m ρ c ∗ R c))
  X c := iprop(emp)
  Y c := iprop(emp)
  Z c := iprop((((c : Thread nD τ).loc main_arg3) ↦{fullShare} Vr m ρ c main_arg3) ∗ (((c : Thread nD τ).loc main_v0) ↦{fullShare} Vr m ρ c main_v0))
  hentry c := by
    rw [show StableHlo.held (c : Thread nD τ) (Pipeline.ucRefs τ sig) (V₁ m ρ c) = unscopedBufs c (Vr m ρ c) from (Pipeline.unscopedBufs_held c _).symm,
      Pipeline.unscopedBufs_split₀ cfgs 0 winFacts₀0.arr_unscoped c (Vr m ρ c), unscopedRest0_eq c (Vr m ρ c), arrBufs_chain c (Vr m ρ c),
      arrays_chain (Vr m ρ) c]
    rw [arrAt0_0, arrAt0_1, arrAt0_2, arrAt0_3, arrAt0_4, arrAt0_5]
    iintro ⟨⟨⟨⟨H1, H0, H2, H4, H5⟩, H3, H6⟩, HO⟩, -, -⟩
    ihave H1 := (pointsTo_share (PosShare.mem_left_op_right fullShare)).1 $$ H1
    icases H1 with ⟨H1l, H1r⟩
    imodintro
    isplitl [H1l H1r H0 H2 H4 H5]
    · isplitl [H1l]; · iexact H1l
      isplitl [H1r]; · iexact H1r
      isplitl [H0]; · iexact H0
      isplitl [H2]; · iexact H2
      isplitl [H4]; · iexact H4
      iexact H5
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H3]; · iexact H3
    iexact H6
  hin c := by
    rw [show (dats (Vr m ρ) 0 c).Φ 0 = iprop(emp) from rfl]
    iintro -; iempintro
  hout c := by
    rw [Pipeline.ownSems0_none, scopedRest0_eq, show (dats (Vr m ρ) 0 c).Φ (Fin.last cfg0.N) = iprop(emp) from rfl]
    iintro -
    isplitr; · iempintro
    isplitr <;> iempintro
  hexit c := by
    rw [arrays_chain (Vr m ρ) c, held_S1, V₂_out, V₂_res]
    rw [arrAtN_0, arrAtN_1, arrAtN_2, arrAtN_3, arrAtN_4]
    iintro ⟨⟨H1l, H1r, H0, H2, H4, H5⟩, HO, -, H3, H6⟩
    ihave H1 := (pointsTo_share (PosShare.mem_left_op_right fullShare)).2 $$ [H1l H1r]
    · isplitl [H1l] <;> iassumption
    imodintro
    isplitl [H5 H6]
    · isplitl [H5]; · iexact H5
      iexact H6
    isplitr [HO]
    · isplitl [H0]; · iexact H0
      isplitl [H1]; · iexact H1
      isplitl [H2]; · iexact H2
      isplitl [H3]; · iexact H3
      iexact H4
    · unfold Pipeline.Dat.owesAt Pipeline.owesWithin
      icases HO with ⟨%W, -, HO⟩; iexists W; iexact HO

/-! ## The run -/

/-- The program as its three segments. -/
abbrev segs : List (Pipeline.Seg (pcfgs (F := F)) adm (dats (Vr m ρ)) () defs₀ 𝒱₀ L lv) :=
  [.host (seg0 m ρ), .region (reg0 m ρ), .host (seg1 m ρ)]

/-- What the core holds when the program returns: the result and the region's result array after the relayout,
    the other five buffers as the region's entry found them. -/
abbrev Tₙ (c : Dev nD) : sProp 𝕄 :=
  iprop(StableHlo.held (c : Thread nD τ) S1 (StableHlo.after hostOps1 (V₂ m ρ c)) ∗ rest5 m ρ c)

/-- The launch element: the pipelined loop's staging cells and transfers, nothing else. -/
def u₀ : UR sig nD τ := initOf (Pipeline.cells cfgs cellOf_inj) (Pipeline.launchToks cfgs cellOf_inj)

/-- The final memory: the result at the relayout of the region's result array, the four arguments as the region's
    entry found them. -/
def QC : PUnit × MemSt nD τ sig (Elt F) → Prop := fun r => ∀ c : Dev nD,
  r.2.mem ((c : Thread nD τ).loc main_v0) = resultOf m ρ c
    ∧ r.2.mem ((c : Thread nD τ).loc main_arg0) = Vr m ρ c main_arg0
    ∧ r.2.mem ((c : Thread nD τ).loc main_arg1) = Vr m ρ c main_arg1
    ∧ r.2.mem ((c : Thread nD τ).loc main_arg2) = Vr m ρ c main_arg2
    ∧ r.2.mem ((c : Thread nD τ).loc main_arg3) = Vr m ρ c main_arg3

set_option backward.isDefEq.respectTransparency.types false in
/-- From any memory with every counter at zero: every weakly fair execution of the program terminates, nothing
    faulting, in a memory as `QC` says. -/
theorem run_main : θ_run defs (onTc (τ := τ) (main (F := F))) (s₀ m ρ) (QC m ρ) :=
  Pipeline.θ_run_regions_kit (pcfgs (F := F)) adm (dats (Vr m ρ)) () cellOf_inj EP defs₀ 𝒱₀ L lv m ρ main (segs m ρ)
    (fun c Q => by rw [main_segs adm (dats (Vr m ρ)) () 𝒱₀ L lv (seg0 m ρ) (seg1 m ρ) (reg0 m ρ) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun c => by
      show iprop(StableHlo.held (c : Thread nD τ) S1 (StableHlo.after hostOps1 (V₂ m ρ c)) ∗ (rest5 m ρ c ∗ R c)) ⊢ _
      iintro ⟨Hh, Hr, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from
        Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v0) = resultOf m ρ c
      ∧ s.mem ((c : Thread nD τ).loc main_arg0) = Vr m ρ c main_arg0
      ∧ s.mem ((c : Thread nD τ).loc main_arg1) = Vr m ρ c main_arg1
      ∧ s.mem ((c : Thread nD τ).loc main_arg2) = Vr m ρ c main_arg2
      ∧ s.mem ((c : Thread nD τ).loc main_arg3) = Vr m ρ c main_arg3)
    (hfin := fun c s' => by
      dsimp only [Tₙ]; rw [held_S1]
      iintro ⟨⟨⟨-, Hv⟩, H0, H1, H2, H3, -⟩, HSI⟩
      icombine HSI Hv gives %hv
      icombine HSI H0 gives %h0
      icombine HSI H1 gives %h1
      icombine HSI H2 gives %h2
      icombine HSI H3 gives %h3
      imodintro
      isplitr
      · ipureintro
        exact ⟨Buf.eq_of_forall_mem_univ hv, Buf.eq_of_forall_mem_univ h0, Buf.eq_of_forall_mem_univ h1, Buf.eq_of_forall_mem_univ h2,
          Buf.eq_of_forall_mem_univ h3⟩
      iexact HSI)
    (hQ := fun _ h => h)

/-! ## The frame -/

/-- The first host stretch writes only the bias row: each argument reaches the region as launched. -/
theorem not_written (b : Ref sig .tc) (hb : b ≠ main_call0_v0) : ∀ op ∈ (hostOps0 (F := F)), Proc.devRef .tc b ∉ op.writes := by
  intro op hop
  rw [List.mem_singleton] at hop
  subst hop
  rw [StableHlo.reshape_writes, Finset.mem_singleton]
  exact StableHlo.devRef_ne_of_ne hb
theorem Vr_arg0 (c : Dev nD) : Vr m ρ c main_arg0 = m ((c : Thread nD τ).loc main_arg0) :=
  StableHlo.after_of_forall_not_mem (b := Proc.devRef .tc main_arg0) hostOps0 (V₀ m ρ c) (not_written main_arg0 (by decide))
theorem Vr_arg1 (c : Dev nD) : Vr m ρ c main_arg1 = m ((c : Thread nD τ).loc main_arg1) :=
  StableHlo.after_of_forall_not_mem (b := Proc.devRef .tc main_arg1) hostOps0 (V₀ m ρ c) (not_written main_arg1 (by decide))
theorem Vr_arg2 (c : Dev nD) : Vr m ρ c main_arg2 = m ((c : Thread nD τ).loc main_arg2) :=
  StableHlo.after_of_forall_not_mem (b := Proc.devRef .tc main_arg2) hostOps0 (V₀ m ρ c) (not_written main_arg2 (by decide))
theorem Vr_arg3 (c : Dev nD) : Vr m ρ c main_arg3 = m ((c : Thread nD τ).loc main_arg3) :=
  StableHlo.after_of_forall_not_mem (b := Proc.devRef .tc main_arg3) hostOps0 (V₀ m ρ c) (not_written main_arg3 (by decide))

/-- The program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.1.trans (Vr_arg0 m ρ c), (h c).2.2.1.trans (Vr_arg1 m ρ c),
    (h c).2.2.2.1.trans (Vr_arg2 m ρ c), (h c).2.2.2.2.trans (Vr_arg3 m ρ c)⟩) (run_main m ρ)

end Cert.KernelIdeal.Hand

end
-- ==== Proof.Spec.lean ====
/-
  The function both programs compute, as one formula on the extended reals.

  For node features `x` (10000 × 128), a dense adjacency `A` (10000 × 10000), weights `W` (128 × 128) and a
  bias `b` (128), the graph-convolution layer with a residual connection is

      out[r, c] = max ( (Σ_k (Σ_j A[r, j] · x[j, k]) · W[k, c]) + x[r, c] + b[c] , 0 ),

  written here in the order "aggregate the neighbours' features first, then project": row `r` of `A · x`
  is formed, multiplied by `W`, and the residual row and the bias are added before the rectifier.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SB : Shape := ⟨1, ![128]⟩

/-- Entry `(r, k)` of the aggregated features `A · x`: the sum over all nodes `j` of `A[r, j] · x[j, k]`. -/
def agg (x : SX.Idx → EReal) (A : SA.Idx → EReal) (r : Fin 10000) (k : Fin 128) : EReal :=
  ∑ j : Fin 10000, A (ix2 r j) * x (ix2 j k)

/-- The layer's output at row `r`, column `c`: `(A · x) · W` plus the residual `x` plus the bias, rectified. -/
def gcnAt (x : SX.Idx → EReal) (A : SA.Idx → EReal) (W : SW.Idx → EReal) (b : SB.Idx → EReal)
    (r : Fin 10000) (c : Fin 128) : EReal :=
  max (((∑ k : Fin 128, agg x A r k * W (ix2 k c)) + x (ix2 r c)) + b (ix1 c)) 0

/-- The layer's output as a whole array. -/
def gcn (x : SX.Idx → EReal) (A : SA.Idx → EReal) (W : SW.Idx → EReal) (b : SB.Idx → EReal) : SX.Idx → EReal :=
  fun i => gcnAt x A W b (i 0) (i 1)

end Cert.Spec

end
-- ==== Proof.GridSpecIdeal.lean ====
/-
  The kernel's result before its final relayout, as one formula.

  The kernel writes a 2 × 5000 × 128 array: entry `(s, u, q)` is the layer's output at row `5000 s + u`, column `q`,
  of the arrays the kernel region finds — the features, the adjacency, the weights, and the bias presented as a
  1 × 128 row.
-/
import proofs.«100157_g13692355740361_cont_week2b_1267_20_alg».proof.Proof.ObligationIdeal
import proofs.«100157_g13692355740361_cont_week2b_1267_20_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

/-- Row `5000 s + u` of the 10000 rows: the row that entry `(s, u, ·)` of the 2 × 5000 × 128 array holds. -/
def rowOf (s : Fin 2) (u : Fin 5000) : Fin 10000 := ⟨5000 * s.val + u.val, by have := s.isLt; have := u.isLt; omega⟩

variable (Vr : (c : Dev nD) → (b : Ref sig .tc) → Buf (Elt Ideal) ((c : Thread nD τ).loc b))

/-- The bias row the region finds (1 × 128), read as a vector of 128. -/
def biasOf (c : Dev nD) : Cert.Spec.SB.Idx → EReal := fun i => Vr c main_call0_v0 (ix2 (0 : Fin 1) (i 0))

/-- The 2 × 5000 × 128 array the kernel region leaves: the layer's output, row `5000 s + u` at `(s, u, ·)`. -/
def G3 (c : Dev nD) : S2x5000x128.Idx → EReal := fun y =>
  Cert.Spec.gcnAt (Vr c main_arg0) (Vr c main_arg1) (Vr c main_arg2) (biasOf Vr c) (rowOf (y 0) (y 1)) (y 2)

end Cert.KernelIdeal.Hand

end
-- ==== Proof.PayloadIdeal.lean ====
/-
  The value the kernel body stores, read at one index, on the extended reals.

  The body stores two 200 × 128 slabs. Slab `s`, row `p`, column `q` holds

      max ( (Σ_k (Σ_j a_s[p, j] · x[j, k]) · w[k, q]) + x[200 i + 5000 s + p, q] + b[0, q] , 0 ),

  where `a_0`, `a_1` are the two adjacency blocks handed to grid point `i`: the block is multiplied by the whole
  feature matrix, the product by the weights, the residual rows of `x` that belong to the block's rows and the bias
  row are added, and the result is rectified. This module reads that off the stored term: which of the two stores an
  index of the output buffer falls under, each matrix product as a sum over its one contracted axis, the residual
  rows through their offset, and the layout operations (adding a unit axis, repeating the bias row) at an index.
-/
import proofs.«100157_g13692355740361_cont_week2b_1267_20_alg».proof.Proof.BodyIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The two matrix products at an index -/

theorem lhs_mm1_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_mm1_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_mm1_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_mm1_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The block-times-features product into a zero accumulator: entry `(p, k)` is `Σ_j a[p, j] · x[j, k]`. -/
theorem mm1_at (a : FVec Ideal S200x10000 .f32) (x : FVec Ideal S10000x128 .f32) (p : Fin 200) (k : Fin 128) :
    matmul (F := Ideal) dot_S200x10000_S10000x128_S200x128_1_0_0_1_n_n none a x (constant S200x128 .f32 0x00000000#32) (ix2 p k)
      = ∑ j : Fin 10000, a (ix2 p j) * x (ix2 j k) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun j _ => ?_
  have hk := ValueIdx.contrEquiv1_symm_val dot_S200x10000_S10000x128_S200x128_1_0_0_1_n_n 10000 rfl rfl j
  have el : dot_S200x10000_S10000x128_S200x128_1_0_0_1_n_n.lhsIdx (ix2 p k) ((ValueIdx.contrEquiv1 dot_S200x10000_S10000x128_S200x128_1_0_0_1_n_n 10000 rfl rfl).symm j) = ix2 p j := funext fun a => Fin.ext (by
    match a with
    | ⟨0, _⟩ => exact lhs_mm1_0 _ _
    | ⟨1, _⟩ => exact (lhs_mm1_1 _ _).trans hk)
  have er : dot_S200x10000_S10000x128_S200x128_1_0_0_1_n_n.rhsIdx (ix2 p k) ((ValueIdx.contrEquiv1 dot_S200x10000_S10000x128_S200x128_1_0_0_1_n_n 10000 rfl rfl).symm j) = ix2 j k := funext fun a => Fin.ext (by
    match a with
    | ⟨0, _⟩ => exact (rhs_mm1_0 _ _).trans hk
    | ⟨1, _⟩ => exact rhs_mm1_1 _ _)
  rw [el, er]

theorem lhs_mm2_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_mm2_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_mm2_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_mm2_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The product with the weights into a zero accumulator: entry `(p, q)` is `Σ_k y[p, k] · w[k, q]`. -/
theorem mm2_at (y : FVec Ideal S200x128 .f32) (w : FVec Ideal S128x128 .f32) (p : Fin 200) (q : Fin 128) :
    matmul (F := Ideal) dot_S200x128_S128x128_S200x128_1_0_0_1_n_n none y w (constant S200x128 .f32 0x00000000#32) (ix2 p q)
      = ∑ k : Fin 128, y (ix2 p k) * w (ix2 k q) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 p q) ((ValueIdx.contrEquiv1 dot_S200x128_S128x128_S200x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S200x128_S128x128_S200x128_1_0_0_1_n_n.rhsIdx (ix2 p q) ((ValueIdx.contrEquiv1 dot_S200x128_S128x128_S200x128_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-! ## The arithmetic of one slab at an index -/

/-- The rectified sum before the unit axis is added: entry `(p, q)`, from the block `a`, the features, the weights,
    the bias row and the block's residual rows `res`. -/
theorem pay4_at (a : Vec Ideal S200x10000 .f32) (x : Vec Ideal S10000x128 .f32) (w : Vec Ideal S128x128 .f32)
    (b : Vec Ideal S1x128 .f32) (res : Vec Ideal S200x128 .f32) (p : Fin 200) (q : Fin 128) :
    k0_pay4 (F := Ideal) a x w b res (ix2 p q)
      = max (((∑ k : Fin 128, (∑ j : Fin 10000, a (ix2 p j) * x (ix2 j k)) * w (ix2 k q)) + res (ix2 p q))
          + b (ix2 (0 : Fin 1) q)) 0 := by
  unfold k0_pay4 k0_pay2
  show max ((matmul (F := Ideal) dot_S200x128_S128x128_S200x128_1_0_0_1_n_n none
        (matmul (F := Ideal) dot_S200x10000_S10000x128_S200x128_1_0_0_1_n_n none a x (constant S200x128 .f32 0x00000000#32)) w
        (constant S200x128 .f32 0x00000000#32) (ix2 p q) + res (ix2 p q))
      + broadcastTo S200x128 (shapeCast S1x128 b shapeCasts_S1x128_S1x128) broadcasts_S1x128_S200x128 (ix2 p q))
      (Ideal.ofBits .f32 0x00000000#32) = _
  rw [mm2_at, broadcastTo_1b_ab_apply, shapeCast_self, Ideal.ofBits_zero_f32]
  simp only [mm1_at]

/-- Adding the leading unit axis moves nothing: entry `(0, p, q)` of the stored slab is entry `(p, q)`. -/
theorem pay1_at (v : FVec Ideal S200x128 .f32) (u : Fin 1) (p : Fin 200) (q : Fin 128) :
    k0_pay1 (F := Ideal) v (ix3 u p q) = v (ix2 p q) := by
  unfold k0_pay1
  exact shapeCast_ab_1ab_apply v shapeCasts_S200x128_S1x200x128 u p q

/-- The first slab's stored term is the second's with the other block and residual rows. -/
theorem pay3_eq (a : Vec Ideal S200x10000 .f32) (x : Vec Ideal S10000x128 .f32) (w : Vec Ideal S128x128 .f32)
    (b : Vec Ideal S1x128 .f32) (res : Vec Ideal S200x128 .f32) :
    k0_pay3 (F := Ideal) a x w b res = k0_pay1 (k0_pay4 (F := Ideal) a x w b res) := rfl

/-! ## The loads -/

/-- The zero offsets of a rank-2 rectangle, as the constant function. -/
theorem zeros2 : (![0, 0] : Fin 2 → Nat) = fun _ => 0 :=
  funext fun a => match a with | ⟨0, _⟩ => rfl | ⟨1, _⟩ => rfl

/-- the row of the feature matrix that is the residual of output row (s, p) at grid point i: 200 i + 5000 s + p -/
def resRow (i : grid0.Coords) (s : Fin 2) (p : Fin 200) : Fin 10000 :=
  ⟨200 * (i 0).val + 5000 * s.val + p.val, by
    have h0 : (i 0).val < 25 := (i 0).isLt
    have := s.isLt; have := p.isLt; omega⟩

/-- Row `p` of the first block's residual rows is row `200 i + p` of the features. -/
theorem resA_at (i : grid0.Coords) (x : Vec Ideal S10000x128 .f32) (p : Fin 200) (q : Fin 128) :
    View.ld x (rResA i) (ix2 p q) = x (ix2 (resRow i 0 p) q) := by
  show x ((rResA i).idx (ix2 p q)) = _
  refine congrArg x (funext fun a => Fin.ext ?_)
  match a with
  | ⟨0, _⟩ =>
    show k0_off1 i 0 + 1 * p.val = 200 * (i 0).val + 5000 * 0 + p.val
    rw [k0_off1_eq]; show 200 * (i 0).val + 1 * p.val = _; omega
  | ⟨1, _⟩ =>
    show k0_off1 i 1 + 1 * q.val = q.val
    rw [k0_off1_eq]; show 0 + 1 * q.val = _; omega

/-- Row `p` of the second block's residual rows is row `200 i + 5000 + p` of the features. -/
theorem resB_at (i : grid0.Coords) (x : Vec Ideal S10000x128 .f32) (p : Fin 200) (q : Fin 128) :
    View.ld x (rResB i) (ix2 p q) = x (ix2 (resRow i 1 p) q) := by
  show x ((rResB i).idx (ix2 p q)) = _
  refine congrArg x (funext fun a => Fin.ext ?_)
  match a with
  | ⟨0, _⟩ =>
    show k0_off2 i 0 + 1 * p.val = 200 * (i 0).val + 5000 * 1 + p.val
    rw [k0_off2_eq]; show 200 * (i 0).val + 5000 + 1 * p.val = _; omega
  | ⟨1, _⟩ =>
    show k0_off2 i 1 + 1 * q.val = q.val
    rw [k0_off2_eq]; show 0 + 1 * q.val = _; omega

/-- Loads through the whole-buffer rectangles read the buffers' contents. -/
theorem ld_adj (a : Vec Ideal S200x10000 .f32) : View.ld a rAdj = a := View.ld_unit_zero zeros2 _ a
theorem ld_x (x : Vec Ideal S10000x128 .f32) : View.ld x rX = x := View.ld_unit_zero zeros2 _ x
theorem ld_w (w : Vec Ideal S128x128 .f32) : View.ld w rW = w := View.ld_unit_zero zeros2 _ w
theorem ld_b (b : Vec Ideal S1x128 .f32) : View.ld b rB = b := View.ld_unit_zero zeros2 _ b

/-! ## Which store an index of the output buffer falls under -/

/-- An index of slab 0 is not under the store to slab 1 (whose first coordinate is 1). -/
theorem slab0_not_mem (p : Fin 200) (q : Fin 128) : ix3 (0 : Fin 2) p q ∉ rOut1.set := by
  rw [Rect.mem_set_unit]
  intro h
  have h0 : 1 ≤ 0 := (h 0).1
  omega

/-- An index of slab 0 is where the store to slab 0 puts the slab's entry of the same row and column. -/
theorem slab0_emb (p : Fin 200) (q : Fin 128) : ix3 (0 : Fin 2) p q = rOut0.emb (ix3 (0 : Fin 1) p q) :=
  funext fun a => Fin.ext (by
    match a with
    | ⟨0, _⟩ => rfl
    | ⟨1, _⟩ => show p.val = 0 + 1 * p.val; omega
    | ⟨2, _⟩ => show q.val = 0 + 1 * q.val; omega)

/-- An index of slab 1 is where the store to slab 1 puts the slab's entry of the same row and column. -/
theorem slab1_emb (p : Fin 200) (q : Fin 128) : ix3 (1 : Fin 2) p q = rOut1.emb (ix3 (0 : Fin 1) p q) :=
  funext fun a => Fin.ext (by
    match a with
    | ⟨0, _⟩ => rfl
    | ⟨1, _⟩ => show p.val = 0 + 1 * p.val; omega
    | ⟨2, _⟩ => show q.val = 0 + 1 * q.val; omega)

/-- Under the two stores, slab 0 holds the earlier store's payload … -/
theorem canon_slab0 (P1 P0 : Vec Ideal S1x200x128 .f32) (p : Fin 200) (q : Fin 128) :
    View.canon ([⟨rOut1, P1⟩, ⟨rOut0, P0⟩] : List (View.Piece (Elt Ideal) S2x200x128 .f32)) (ix3 (0 : Fin 2) p q)
      = P0 (ix3 (0 : Fin 1) p q) := by
  have h : ix3 (0 : Fin 2) p q ∉ (⟨rOut1, P1⟩ : View.Piece (Elt Ideal) S2x200x128 .f32).1.set := slab0_not_mem p q
  rw [View.canon_cons_of_not_mem (⟨rOut1, P1⟩ : View.Piece (Elt Ideal) S2x200x128 .f32) [⟨rOut0, P0⟩] h, slab0_emb p q]
  exact View.canon_cons_emb rOut0 P0 [] (ix3 (0 : Fin 1) p q)

/-- … and slab 1 the later store's. -/
theorem canon_slab1 (P1 P0 : Vec Ideal S1x200x128 .f32) (p : Fin 200) (q : Fin 128) :
    View.canon ([⟨rOut1, P1⟩, ⟨rOut0, P0⟩] : List (View.Piece (Elt Ideal) S2x200x128 .f32)) (ix3 (1 : Fin 2) p q)
      = P1 (ix3 (0 : Fin 1) p q) := by
  rw [slab1_emb p q]
  exact View.canon_cons_emb rOut1 P1 [⟨rOut0, P0⟩] (ix3 (0 : Fin 1) p q)

/-! ## The output buffer at an index -/

/-- Slab 0: the first adjacency block's rows. -/
theorem out5_at0 (i : grid0.Coords) (a0 a1 : Vec Ideal S200x10000 .f32) (x : Vec Ideal S10000x128 .f32) (w : Vec Ideal S128x128 .f32)
    (b : Vec Ideal S1x128 .f32) (p : Fin 200) (q : Fin 128) :
    out5 (F := Ideal) i a0 a1 x w b (ix3 (0 : Fin 2) p q)
      = max (((∑ k : Fin 128, (∑ j : Fin 10000, a0 (ix2 p j) * x (ix2 j k)) * w (ix2 k q))
              + x (ix2 (resRow i 0 p) q)) + b (ix2 (0 : Fin 1) q)) 0 := by
  unfold out5
  rw [ld_adj, ld_adj, ld_x, ld_w, ld_b]
  rw [canon_slab0, pay3_eq, pay1_at, pay4_at, resA_at]

/-- Slab 1: the second adjacency block's rows. -/
theorem out5_at1 (i : grid0.Coords) (a0 a1 : Vec Ideal S200x10000 .f32) (x : Vec Ideal S10000x128 .f32) (w : Vec Ideal S128x128 .f32)
    (b : Vec Ideal S1x128 .f32) (p : Fin 200) (q : Fin 128) :
    out5 (F := Ideal) i a0 a1 x w b (ix3 (1 : Fin 2) p q)
      = max (((∑ k : Fin 128, (∑ j : Fin 10000, a1 (ix2 p j) * x (ix2 j k)) * w (ix2 k q))
              + x (ix2 (resRow i 1 p) q)) + b (ix2 (0 : Fin 1) q)) 0 := by
  unfold out5
  rw [ld_adj, ld_adj, ld_x, ld_w, ld_b]
  rw [canon_slab1, pay1_at, pay4_at, resB_at]

/-- Entry `(s, p, q)` of the output buffer after the body at grid point `i`. -/
theorem out5_at (i : grid0.Coords) (a0 a1 : Vec Ideal S200x10000 .f32) (x : Vec Ideal S10000x128 .f32) (w : Vec Ideal S128x128 .f32) (b : Vec Ideal S1x128 .f32)
    (s : Fin 2) (p : Fin 200) (q : Fin 128) :
    out5 (F := Ideal) i a0 a1 x w b (ix3 s p q)
      = max (((∑ k : Fin 128, (∑ j : Fin 10000, (if s.val = 0 then a0 else a1) (ix2 p j) * x (ix2 j k)) * w (ix2 k q))
              + x (ix2 (resRow i s p) q)) + b (ix2 (0 : Fin 1) q)) 0 := by
  match s with
  | ⟨0, _⟩ => exact out5_at0 i a0 a1 x w b p q
  | ⟨1, _⟩ => exact out5_at1 i a0 a1 x w b p q

end Cert.KernelIdeal.Hand

end
-- ==== Proof.BlocksIdeal.lean ====
/-
  From what each grid point writes back to the whole result array.

  The kernel's result is a 2 × 5000 × 128 array written in 25 blocks of shape 2 × 200 × 128: point `t` writes rows
  `200 t … 200 t + 199` of both halves. Entry `(s, p, q)` of the block written at point `t` is the layer's output at
  row `5000 s + 200 t + p`, column `q`: the adjacency rows the body multiplies are rows `200 t + p` (first half) and
  `5000 + 200 t + p` (second half) of the one adjacency array, the features, the weights and the bias row are read
  whole, and the residual row is that same row of the features. So each block written back is the matching block of
  one function of the whole arrays, the blocks tile the result (entry `(s, u, q)` lies in the block of point
  `u / 200`), and the array the region leaves is that function.
-/
import proofs.«100157_g13692355740361_cont_week2b_1267_20_alg».proof.Proof.GridSpecIdeal
import proofs.«100157_g13692355740361_cont_week2b_1267_20_alg».proof.Proof.PayloadIdeal
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (Vr : (c : Dev nD) → (b : Ref sig .tc) → Buf (Elt Ideal) ((c : Thread nD τ).loc b))

/-! ## Where each window's block sits in its array -/

/-- The block index of every window at every grid point, at each of the 25 grid points: the two adjacency windows
    sit at block rows `t` and `25 + t`, the features, the weights and the bias row at block `(0, 0)`, the result's
    window at block `(0, t, 0)`; the grid has one axis, whose coordinate at point `t` is `t`. -/
theorem blockIndex : ∀ t : Fin cfg0.N,
    win0_0.index t (0 : Fin 2) = t.val ∧ win0_0.index t (1 : Fin 2) = 0
    ∧ win0_1.index t (0 : Fin 2) = 25 + t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0
    ∧ (grid0.coords t 0).val = t.val :=
  (by decide +kernel : ∀ t : Fin grid0.N, _)

/-- Row `p` of the first adjacency block at point `t` is row `200 t + p` of the adjacency array. -/
theorem adjBlock0_apply (c : Dev nD) (t : Fin cfg0.N) (p : Fin 200) (j : Fin 10000) (r : Fin 10000)
    (hr : r.val = 200 * t.val + p.val) :
    (iblk Vr c 0 t : Vec Ideal S200x10000 .f32) (ix2 p j) = (Vr c main_arg1 : S10000x10000.Idx → EReal) (ix2 r j) := by
  obtain ⟨e0, e1, -⟩ := blockIndex t
  show Vr c main_arg1 (((cfg0.win 0).blk t).view.emb (ix2 p j)) = Vr c main_arg1 (ix2 r j)
  refine congrArg _ (funext fun a => Fin.ext ?_)
  match a with
  | ⟨0, _⟩ => show win0_0.index t (0 : Fin 2) * 200 + 1 * p.val = r.val; omega
  | ⟨1, _⟩ => show win0_0.index t (1 : Fin 2) * 10000 + 1 * j.val = j.val; omega

/-- Row `p` of the second adjacency block at point `t` is row `5000 + 200 t + p` of the adjacency array. -/
theorem adjBlock1_apply (c : Dev nD) (t : Fin cfg0.N) (p : Fin 200) (j : Fin 10000) (r : Fin 10000)
    (hr : r.val = 5000 + 200 * t.val + p.val) :
    (iblk Vr c 1 t : Vec Ideal S200x10000 .f32) (ix2 p j) = (Vr c main_arg1 : S10000x10000.Idx → EReal) (ix2 r j) := by
  obtain ⟨-, -, e0, e1, -⟩ := blockIndex t
  show Vr c main_arg1 (((cfg0.win 1).blk t).view.emb (ix2 p j)) = Vr c main_arg1 (ix2 r j)
  refine congrArg _ (funext fun a => Fin.ext ?_)
  match a with
  | ⟨0, _⟩ => show win0_1.index t (0 : Fin 2) * 200 + 1 * p.val = r.val; omega
  | ⟨1, _⟩ => show win0_1.index t (1 : Fin 2) * 10000 + 1 * j.val = j.val; omega

/-- The features' window holds the whole feature matrix at every point. -/
theorem featBlock_eq (c : Dev nD) (t : Fin cfg0.N) :
    (iblk Vr c 2 t : Vec Ideal S10000x128 .f32) = (Vr c main_arg0 : S10000x128.Idx → EReal) := by
  obtain ⟨-, -, -, -, e0, e1, -⟩ := blockIndex t
  funext y
  show Vr c main_arg0 (((cfg0.win 2).blk t).view.emb y) = Vr c main_arg0 y
  refine congrArg _ (funext fun a => Fin.ext ?_)
  match a with
  | ⟨0, _⟩ => show win0_2.index t (0 : Fin 2) * 10000 + 1 * (y 0).val = (y 0).val; omega
  | ⟨1, _⟩ => show win0_2.index t (1 : Fin 2) * 128 + 1 * (y 1).val = (y 1).val; omega

/-- The weights' window holds the whole weight matrix at every point. -/
theorem weightBlock_eq (c : Dev nD) (t : Fin cfg0.N) :
    (iblk Vr c 3 t : Vec Ideal S128x128 .f32) = (Vr c main_arg2 : S128x128.Idx → EReal) := by
  obtain ⟨-, -, -, -, -, -, e0, e1, -⟩ := blockIndex t
  funext y
  show Vr c main_arg2 (((cfg0.win 3).blk t).view.emb y) = Vr c main_arg2 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window holds the whole 1 × 128 bias row at every point. -/
theorem biasBlock_eq (c : Dev nD) (t : Fin cfg0.N) :
    (iblk Vr c 4 t : Vec Ideal S1x128 .f32) = (Vr c main_call0_v0 : S1x128.Idx → EReal) := by
  obtain ⟨-, -, -, -, -, -, -, -, e0, e1, -⟩ := blockIndex t
  funext y
  show Vr c main_call0_v0 (((cfg0.win 4).blk t).view.emb y) = Vr c main_call0_v0 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry `(s, p, q)` of the result's block at point `t` is entry `(s, 200 t + p, q)` of the result array. -/
theorem outBlock_emb (t : Fin cfg0.N) (s : Fin 2) (p : Fin 200) (q : Fin 128) (u : Fin 5000)
    (hu : u.val = 200 * t.val + p.val) :
    (((cfg0.win 5).blk t).view.emb (ix3 s p q) : S2x5000x128.Idx) = ix3 s u q := by
  obtain ⟨-, -, -, -, -, -, -, -, -, -, e0, e1, e2, -⟩ := blockIndex t
  refine funext fun a => Fin.ext ?_
  match a with
  | ⟨0, _⟩ => show win0_5.index t (0 : Fin 3) * 2 + 1 * s.val = s.val; omega
  | ⟨1, _⟩ => show win0_5.index t (1 : Fin 3) * 200 + 1 * p.val = u.val; omega
  | ⟨2, _⟩ => show win0_5.index t (2 : Fin 3) * 128 + 1 * q.val = q.val; omega

/-- Slab `s`'s adjacency block at point `t` (the first block for slab 0, the second for slab 1), at row `p`, is row
    `5000 s + u` of the adjacency array, where `u = 200 t + p`. -/
theorem adjSlab_apply (c : Dev nD) (t : Fin cfg0.N) (s : Fin 2) (p : Fin 200) (j : Fin 10000) (u : Fin 5000)
    (hu : u.val = 200 * t.val + p.val) :
    (if s.val = 0 then (iblk Vr c 0 t : Vec Ideal S200x10000 .f32) else (iblk Vr c 1 t : Vec Ideal S200x10000 .f32)) (ix2 p j)
      = (Vr c main_arg1 : S10000x10000.Idx → EReal) (ix2 (rowOf s u) j) := by
  match s with
  | ⟨0, _⟩ =>
    rw [if_pos rfl]
    exact adjBlock0_apply Vr c t p j _ (by show 5000 * 0 + u.val = _; omega)
  | ⟨1, _⟩ =>
    rw [if_neg Nat.one_ne_zero]
    exact adjBlock1_apply Vr c t p j _ (by show 5000 * 1 + u.val = _; omega)

/-- The residual row of slab `s` at row `p` of the block at point `t` is row `5000 s + u`, where `u = 200 t + p`. -/
theorem resRow_eq (t : Fin cfg0.N) (s : Fin 2) (p : Fin 200) (u : Fin 5000) (hu : u.val = 200 * t.val + p.val) :
    resRow (grid0.coords t) s p = rowOf s u := by
  obtain ⟨-, -, -, -, -, -, -, -, -, -, -, -, -, eg⟩ := blockIndex t
  apply Fin.ext
  show 200 * (grid0.coords t 0).val + 5000 * s.val + p.val = 5000 * s.val + u.val
  omega

/-! ## One entry of what a point writes back -/

/-- The body's result at `(s, p, q)`, for input buffers that hold: rows of one adjacency array `A` (slab `s`'s
    block row `p` being row `r` of `A`), the features `X`, the weights `W`, the bias row `B`, with the residual
    row of slab `s` at `p` being row `r` too — is the layer's output at row `r`, column `q`. -/
theorem out5_entry (i : grid0.Coords) (a0 a1 : Vec Ideal S200x10000 .f32) (x : Vec Ideal S10000x128 .f32)
    (w : Vec Ideal S128x128 .f32) (b : Vec Ideal S1x128 .f32)
    (A : S10000x10000.Idx → EReal) (X : S10000x128.Idx → EReal) (W : S128x128.Idx → EReal) (B : S1x128.Idx → EReal)
    (s : Fin 2) (p : Fin 200) (q : Fin 128) (r : Fin 10000)
    (hA : ∀ j : Fin 10000, (if s.val = 0 then a0 else a1) (ix2 p j) = A (ix2 r j))
    (hx : x = X) (hw : w = W) (hb : b = B) (hr : resRow i s p = r) :
    out5 (F := Ideal) i a0 a1 x w b (ix3 s p q)
      = Cert.Spec.gcnAt X A W (fun k => B (ix2 (0 : Fin 1) (k 0))) r q := by
  subst hx hw hb hr
  rw [out5_at]
  unfold Cert.Spec.gcnAt Cert.Spec.agg
  simp only [hA]

/-- WHAT POINT `t` WRITES BACK is block `t` of the layer's output laid out as 2 × 5000 × 128. -/
theorem flushed5_eq (c : Dev nD) (t : Fin cfg0.N) :
    (dats Vr 0 c).flushed 5 t = ((cfg0.win 5).blk t).view.read (Elt Ideal) (G3 Vr c) := by
  show (cfg0.win 5).cut (grid0.coords t) ((dats Vr 0 c).after 5 t) = _
  rw [after_5]
  obtain ⟨-, -, -, -, -, -, -, -, -, -, -, -, -, eg⟩ := blockIndex t
  have ht : t.val < 25 := Nat.lt_of_lt_of_eq t.isLt N_0
  refine funext fun (y : S2x200x128.Idx) => ?_
  have hp : (y 1).val < 200 := (y 1).isLt
  rw [eq_ix3 y]
  show out5 (F := Ideal) (grid0.coords t) (iblk Vr c 0 t) (iblk Vr c 1 t) (iblk Vr c 2 t) (iblk Vr c 3 t) (iblk Vr c 4 t) (ix3 (y 0) (y 1) (y 2))
    = G3 Vr c (((cfg0.win 5).blk t).view.emb (ix3 (y 0) (y 1) (y 2)))
  rw [outBlock_emb t (y 0) (y 1) (y 2) ⟨200 * t.val + (y 1).val, by omega⟩ rfl]
  refine out5_entry (grid0.coords t) _ _ _ _ _ _ _ _ _ (y 0) (y 1) (y 2) _ (fun j => ?_) (featBlock_eq Vr c t) (weightBlock_eq Vr c t) (biasBlock_eq Vr c t) ?_
  · exact adjSlab_apply Vr c t (y 0) (y 1) j _ rfl
  · exact resRow_eq t (y 0) (y 1) _ rfl

/-! ## The blocks tile the result -/

/-- An entry of the result array is in point `t`'s block iff each coordinate is in the block's range on its axis. -/
theorem mem_outBlock (t : Fin cfg0.N) (i : S2x5000x128.Idx) :
    i ∈ ((cfg0.win 5).blk t).view.set ↔ ∀ a : Fin 3, win0_5.index t a * S2x200x128.size a ≤ (i a).val
      ∧ (i a).val < win0_5.index t a * S2x200x128.size a + S2x200x128.size a := by
  show i ∈ ((View.whole main_call0_v1).slice (win0_5.rect t)).set ↔ _
  rw [View.set_slice_whole, Rect.mem_set_unit]
  exact Iff.rfl

/-- Every entry `(s, u, q)` of the result array is in the block of the point `u / 200`, which is written back. -/
theorem outBlocks_cover (i : S2x5000x128.Idx) :
    ∃ t : Fin cfg0.N, (cfg0.win 5).flush t = true ∧ i ∈ ((cfg0.win 5).blk t).view.set := by
  have h0 : (i 0).val < 2 := (i 0).isLt
  have h1 : (i 1).val < 5000 := (i 1).isLt
  have h2 : (i 2).val < 128 := (i 2).isLt
  obtain ⟨t, ht⟩ : ∃ t : Fin cfg0.N, t.val = (i 1).val / 200 :=
    ⟨⟨(i 1).val / 200, by rw [show cfg0.N = 25 from N_0]; omega⟩, rfl⟩
  obtain ⟨-, -, -, -, -, -, -, -, -, -, e0, e1, e2, -⟩ := blockIndex t
  refine ⟨t, flush0_5 t, ?_⟩
  rw [mem_outBlock]
  intro a
  match a with
  | ⟨0, _⟩ =>
    show win0_5.index t (0 : Fin 3) * 2 ≤ (i 0).val ∧ (i 0).val < win0_5.index t (0 : Fin 3) * 2 + 2
    omega
  | ⟨1, _⟩ =>
    show win0_5.index t (1 : Fin 3) * 200 ≤ (i 1).val ∧ (i 1).val < win0_5.index t (1 : Fin 3) * 200 + 200
    omega
  | ⟨2, _⟩ =>
    show win0_5.index t (2 : Fin 3) * 128 ≤ (i 2).val ∧ (i 2).val < win0_5.index t (2 : Fin 3) * 128 + 128
    omega

/-! ## The result array after the region -/

/-- THE RESULT ARRAY after all 25 write-backs is the layer's output laid out as 2 × 5000 × 128. -/
theorem arrAt5_eq (c : Dev nD) : (dats Vr 0 c).arrAt 5 cfg0.N = G3 Vr c :=
  (dats Vr 0 c).arrAt_eq_of_cover 5 (G3 Vr c) (fun t _ => flushed5_eq Vr c t) outBlocks_cover

end Cert.KernelIdeal.Hand

end
-- ==== Proof.ResultIdeal.lean ====
/-
  The kernel program's result is the layer's output.

  When the program returns, its result is the relayout of the 2 × 5000 × 128 array the kernel region assembled:
  entry `(r, q)` of the 10000 × 128 result is entry `(r / 5000, r % 5000, q)` of that array, which is the layer's
  output at row `5000 (r / 5000) + r % 5000 = r`. The arrays the region found are the arguments as launched — the
  one host operation before it only presents the bias as a 1 × 128 row, whose entry `(0, q)` is `b[q]`.
-/
import proofs.«100157_g13692355740361_cont_week2b_1267_20_alg».proof.Proof.LaunchIdeal
import proofs.«100157_g13692355740361_cont_week2b_1267_20_alg».proof.Proof.BlocksIdeal
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The bias row the region finds is the bias presented as 1 × 128. -/
theorem Vr_bias (c : Dev nD) :
    (Vr m ρ c main_call0_v0 : S1x128.Idx → EReal) = shapeCast S1x128 (m ((c : Thread nD τ).loc main_arg3)) shapeCasts_S128_S1x128 := by
  show StableHlo.after hostOps0 (V₀ m ρ c) (Proc.devRef .tc main_call0_v0) = _
  after_results
  rfl

/-- The program's result is the relayout of the region's result array. -/
theorem resultOf_cast (c : Dev nD) :
    (resultOf m ρ c : S10000x128.Idx → EReal) = shapeCast S10000x128 (outArr m ρ c) shapeCasts_S2x5000x128_S10000x128 := by
  show StableHlo.after hostOps1 (V₂ m ρ c) (Proc.devRef .tc main_v0) = _
  after_results
  rw [V₂_out]
  rfl

/-- The bias row read as a vector is the bias. -/
theorem biasOf_eq (c : Dev nD) : biasOf (Vr m ρ) c = m ((c : Thread nD τ).loc main_arg3) := by
  funext i
  obtain ⟨q, rfl⟩ : ∃ q : Fin 128, i = ix1 q := ⟨i 0, eq_ix1 i⟩
  unfold biasOf
  rw [Vr_bias]
  exact shapeCast_a_1a_apply _ _ _ q

/-- Row `r` is row `5000 (r / 5000) + r % 5000`. -/
theorem rowOf_divmod (r : Fin 10000) : rowOf ⟨r.val / 5000, by have := r.isLt; omega⟩ ⟨r.val % 5000, Nat.mod_lt _ (by decide)⟩ = r :=
  Fin.ext (by show 5000 * (r.val / 5000) + r.val % 5000 = r.val; omega)

/-- The program's result is the layer's output of its four arguments. -/
theorem resultOf_eq (c : Dev nD) :
    (resultOf m ρ c : Cert.Spec.SX.Idx → EReal)
      = Cert.Spec.gcn (m ((c : Thread nD τ).loc main_arg0)) (m ((c : Thread nD τ).loc main_arg1)) (m ((c : Thread nD τ).loc main_arg2))
          (m ((c : Thread nD τ).loc main_arg3)) := by
  funext i
  obtain ⟨r, q, rfl⟩ : ∃ (r : Fin 10000) (q : Fin 128), i = ix2 r q := ⟨i 0, i 1, eq_ix2 i⟩
  rw [resultOf_cast]
  rw [shapeCast_apply (s := S2x5000x128) (t := S10000x128) (outArr m ρ c) shapeCasts_S2x5000x128_S10000x128 (ix2 r q)
    (ix3 (⟨r.val / 5000, by have := r.isLt; omega⟩ : Fin 2) (⟨r.val % 5000, Nat.mod_lt _ (by decide)⟩ : Fin 5000) q)
    (by show (S2x5000x128.rowMajor (ix3 (⟨r.val / 5000, _⟩ : Fin 2) (⟨r.val % 5000, _⟩ : Fin 5000) q)).val = (S10000x128.rowMajor (ix2 r q)).val
        rw [Shape.rowMajor_val_three, Shape.rowMajor_val_two]
        show (r.val / 5000 * 5000 + r.val % 5000) * 128 + q.val = r.val * 128 + q.val
        have := Nat.div_add_mod r.val 5000
        omega)]
  show (dats (Vr m ρ) 0 c).arrAt 5 cfg0.N _ = _
  rw [arrAt5_eq]
  unfold G3
  show Cert.Spec.gcnAt (Vr m ρ c main_arg0) (Vr m ρ c main_arg1) (Vr m ρ c main_arg2) (biasOf (Vr m ρ) c)
    (rowOf ⟨r.val / 5000, _⟩ ⟨r.val % 5000, _⟩) q = _
  rw [rowOf_divmod, biasOf_eq, Vr_arg0, Vr_arg1, Vr_arg2]
  rfl

end Cert.KernelIdeal.Hand

end
-- ==== Proof.RefStages.lean ====
/-
  The reference program's run and its operations read at an index (both generated), gathered for the modules that
  compare the reference's composed term with the layer formula.
-/
import proofs.«100157_g13692355740361_cont_week2b_1267_20_alg».proof.Proof.Gen.ReferenceIdeal.Run
import proofs.«100157_g13692355740361_cont_week2b_1267_20_alg».proof.Proof.Gen.ReferenceIdeal.Read
-- ==== Proof.RefIsSpec.lean ====
/-
  The reference program computes the layer formula.

  The reference forms `x · W` first and then multiplies by the adjacency: its entry `(r, c)` is
  `max ((Σ_j A[r, j] · (Σ_k x[j, k] · W[k, c]) + b[c]) + x[r, c], 0)`. The formula of the specification aggregates first:
  `max ((Σ_k (Σ_j A[r, j] · x[j, k]) · W[k, c] + x[r, c]) + b[c], 0)`. The two double sums are equal when the
  entries of `A`, `x` and `W` are real numbers: both are `Σ_j Σ_k A[r, j] · x[j, k] · W[k, c]` by distributivity and
  exchanging the order of summation. (On the extended reals distributivity fails at infinities, hence the
  hypotheses.) The two outer additions differ by a rearrangement, which holds in any commutative monoid.
-/
import proofs.«100157_g13692355740361_cont_week2b_1267_20_alg».proof.Proof.Spec
import proofs.«100157_g13692355740361_cont_week2b_1267_20_alg».proof.Proof.RefStages
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Ring.Finset
import Mathlib.Algebra.BigOperators.Group.Finset.Sigma
import Mathlib.Tactic.Ring

noncomputable section

open scoped BigOperators

namespace Cert.RefSpec

open Idealize.ShloMosaic Idealize.ShloMosaic.ValueIdx Cert.ReferenceIdeal Cert.ReferenceIdeal.Read

/-! ## The law on real numbers, read on the extended reals -/

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Matrix products associate: `Σ_j a_j · (Σ_k x_{jk} · w_k) = Σ_k (Σ_j a_j · x_{jk}) · w_k` for real entries. -/
theorem real_assoc {ι κ : Type} [Fintype ι] [Fintype κ] (a : ι → ℝ) (x : ι → κ → ℝ) (w : κ → ℝ) :
    ∑ j, a j * (∑ k, x j k * w k) = ∑ k, (∑ j, a j * x j k) * w k := by
  simp only [Finset.mul_sum, Finset.sum_mul]
  rw [Finset.sum_comm]
  refine Finset.sum_congr rfl fun k _ => Finset.sum_congr rfl fun j _ => ?_
  ring

/-- The same on the extended reals, for entries that are reals. -/
theorem ereal_assoc {ι κ : Type} [Fintype ι] [Fintype κ] (a : ι → EReal) (x : ι → κ → EReal) (w : κ → EReal)
    (ha : ∀ j, ∃ r : ℝ, a j = (r : EReal)) (hx : ∀ j k, ∃ r : ℝ, x j k = (r : EReal)) (hw : ∀ k, ∃ r : ℝ, w k = (r : EReal)) :
    ∑ j, a j * (∑ k, x j k * w k) = ∑ k, (∑ j, a j * x j k) * w k := by
  choose a' ha using ha
  choose x' hx using hx
  choose w' hw using hw
  simp only [ha, hx, hw, ← EReal.coe_mul, ← coe_sum]
  exact congrArg _ (real_assoc a' x' w')

/-! ## The reference's index functions at a point `(r, c)` -/

theorem lidx_v1 (r : Fin 10000) (c : Fin 128) (j : Fin 10000) : lidx_main_v1 (ix2 r c) j = ix2 r j :=
  funext fun a => Fin.ext (by match a with | ⟨0, _⟩ => rfl | ⟨1, _⟩ => rfl)

theorem ridx_v1 (r : Fin 10000) (c : Fin 128) (j : Fin 10000) : ridx_main_v1 (ix2 r c) j = ix2 j c :=
  funext fun a => Fin.ext (by match a with | ⟨0, _⟩ => rfl | ⟨1, _⟩ => rfl)

theorem lidx_v0 (j : Fin 10000) (c : Fin 128) (k : Fin 128) : lidx_main_v0 (ix2 j c) k = ix2 j k :=
  funext fun a => Fin.ext (by match a with | ⟨0, _⟩ => rfl | ⟨1, _⟩ => rfl)

theorem ridx_v0 (j : Fin 10000) (c : Fin 128) (k : Fin 128) : ridx_main_v0 (ix2 j c) k = ix2 k c :=
  funext fun a => Fin.ext (by match a with | ⟨0, _⟩ => rfl | ⟨1, _⟩ => rfl)

theorem idx_bias (r : Fin 10000) (c : Fin 128) : idx_main_v2 (idx_main_v3 (ix2 r c)) = ix1 c :=
  funext fun a => Fin.ext (by match a with | ⟨0, _⟩ => rfl)

/-! ## The reference at a point -/

/-- Entry `(r, c)` of the reference's result, written out. -/
theorem ref_at (x0 : Cert.Spec.SX.Idx → EReal) (x1 : Cert.Spec.SA.Idx → EReal) (x2 : Cert.Spec.SW.Idx → EReal) (x3 : Cert.Spec.SB.Idx → EReal)
    (r : Fin 10000) (c : Fin 128) :
    val_main_v6 (F := Ideal) x0 x1 x2 x3 (ix2 r c)
      = max (((∑ j : Fin 10000, x1 (ix2 r j) * (∑ k : Fin 128, x0 (ix2 j k) * x2 (ix2 k c))) + x3 (ix1 c)) + x0 (ix2 r c)) 0 := by
  rw [val_main_v6_apply, val_main_v5_apply, val_main_v4_apply, val_main_v1_apply, val_main_v3_apply, val_main_v2_apply,
    val_main_call0_v0_apply, val_main_call0_cst_apply]
  simp only [lidx_v1, ridx_v1, idx_bias, val_main_v0_apply, lidx_v0, ridx_v0, Ideal.addf_def, Ideal.maximumf_def,
    Ideal.ofBits_def, Ideal.ofBits_zero_f32]

/-- The reference's result is the layer formula, when the entries of `x`, `A` and `W` are reals. -/
theorem ref_eq_gcn (x0 : Cert.Spec.SX.Idx → EReal) (x1 : Cert.Spec.SA.Idx → EReal) (x2 : Cert.Spec.SW.Idx → EReal) (x3 : Cert.Spec.SB.Idx → EReal)
    (hx : ∀ i, ∃ r : ℝ, x0 i = (r : EReal)) (hA : ∀ i, ∃ r : ℝ, x1 i = (r : EReal)) (hW : ∀ i, ∃ r : ℝ, x2 i = (r : EReal)) :
    Cert.ReferenceIdeal.Read.val_main_v6 (F := Ideal) x0 x1 x2 x3 = Cert.Spec.gcn x0 x1 x2 x3 := by
  funext i
  obtain ⟨r, c, rfl⟩ : ∃ (r : Fin 10000) (c : Fin 128), i = ix2 r c := ⟨i 0, i 1, eq_ix2 i⟩
  rw [ref_at]
  show _ = Cert.Spec.gcnAt x0 x1 x2 x3 r c
  unfold Cert.Spec.gcnAt Cert.Spec.agg
  rw [ereal_assoc (fun j => x1 (ix2 r j)) (fun j k => x0 (ix2 j k)) (fun k => x2 (ix2 k c))
    (fun j => hA _) (fun j k => hx _) (fun k => hW _), add_right_comm]

end Cert.RefSpec

end
-- ==== Proof.FiniteInputs.lean ====
/-
  From the printed precondition to "every entry is a real number".

  The precondition is the conjunction, over the four argument arrays, of "every entry `e` satisfies
  `|e| < +∞`", where `|e|` is `max e (-e)` on the extended reals and `+∞` is the value of the float
  word `0x7F800000`. An extended real is `⊥`, `⊤` or a real; for the first two `max e (-e) = ⊤`, which is
  not below `⊤`. So the precondition says exactly that every entry of every argument is (the image of) a real.
-/
import proofs.«100157_g13692355740361_cont_week2b_1267_20_alg».proof.Pre_finite_inputs
import Idealize.ShloMosaic.Lib.ReduceAll
import Idealize.ShloMosaic.Lib.ValueIdx
import Idealize.ShloMosaic.PureOps.Ideal.Laws

namespace Cert.FiniteInputs

open Idealize.ShloMosaic Cert.Pre_finite_inputs

/-- The float word `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` compares strictly below `+∞` is a real:
    at `⊥` and at `⊤` the absolute value is `⊤` itself. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has exactly one index. -/
instance : Subsingleton S_.Idx := ⟨fun a b => funext fun d => d.elim0⟩

/-- If the finiteness predicate holds of the four arguments, each entry of each argument is a real.
    The predicate's value at the one rank-0 index is a four-fold `and`; each conjunct is an `and`-reduction
    over a whole array of the entrywise comparison `|e| < +∞`, so it gives that comparison at every index. -/
theorem finite_of_pre [Cert.Pre_finite_inputs.Facts] (x0 : Cert.Pre_finite_inputs.S10000x128.Idx → EReal) (x1 : Cert.Pre_finite_inputs.S10000x10000.Idx → EReal) (x2 : Cert.Pre_finite_inputs.S128x128.Idx → EReal) (x3 : Cert.Pre_finite_inputs.S128.Idx → EReal)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_abs_lt (x0 i) (Host.reduce_andi_all _ _ _ _ _ h1 i),
    fun i => real_of_abs_lt (x1 i) (Host.reduce_andi_all _ _ _ _ _ h2 i),
    fun i => real_of_abs_lt (x2 i) (Host.reduce_andi_all _ _ _ _ _ h3 i),
    fun i => real_of_abs_lt (x3 i) (Host.reduce_andi_all _ _ _ _ _ h4 i)⟩

end Cert.FiniteInputs
-- ==== Proof.lean ====
/-
  The certificate of the graph-convolution kernel against its reference: `out = relu(A · (x · W) + b + x)`.

  The kernel streams the dense adjacency `A` once, in 25 grid points of two 200-row blocks each, and computes
  `relu((A · x) · W + x + b)` — it aggregates the neighbours' features first and projects afterwards —, while the
  reference projects first: `relu((A · (x · W) + b) + x)`. Over the extended reals the two agree wherever the entries
  of `x`, `A` and `W` are real numbers, which the precondition (every input finite) provides: the two matrix
  products reassociate by distributivity and an exchange of the two finite sums, and the residual and the bias are
  added in either order.

  The three frames: the kernel program at the word level and at the ideal level each run to the end and leave the four
  argument arrays unchanged (the run of the pipelined region between its two host reshapes, with the adjacency array
  shared by two windows at half shares); the reference is straight-line host code. The idealization rewrote nothing,
  so its conjunct is trivial. The value claim puts the kernel's run, whose result is the layer's output as one
  formula, beside the reference's run, whose composed term is that formula by the reassociation above.
-/
import proofs.«100157_g13692355740361_cont_week2b_1267_20_alg».proof.Defs
import proofs.«100157_g13692355740361_cont_week2b_1267_20_alg».proof.Proof.Gen.Kernel
import proofs.«100157_g13692355740361_cont_week2b_1267_20_alg».proof.Proof.Gen.KernelIdeal
import proofs.«100157_g13692355740361_cont_week2b_1267_20_alg».proof.Proof.Gen.ReferenceIdeal
import proofs.«100157_g13692355740361_cont_week2b_1267_20_alg».proof.Proof.Gen.Pre_finite_inputs
import proofs.«100157_g13692355740361_cont_week2b_1267_20_alg».proof.Proof.LaunchBits
import proofs.«100157_g13692355740361_cont_week2b_1267_20_alg».proof.Proof.LaunchIdeal
import proofs.«100157_g13692355740361_cont_week2b_1267_20_alg».proof.Proof.ResultIdeal
import proofs.«100157_g13692355740361_cont_week2b_1267_20_alg».proof.Proof.RefStages
import proofs.«100157_g13692355740361_cont_week2b_1267_20_alg».proof.Proof.RefIsSpec
import proofs.«100157_g13692355740361_cont_week2b_1267_20_alg».proof.Proof.FiniteInputs
import Idealize.ShloMosaic.Adequacy
import Idealize.ShloMosaic.Init

noncomputable section

namespace Cert.Proof

open Idealize.ShloMosaic Idealize.ShloMosaic.TcCoe Idealize.SL.Sem

/-- The kernel program at the word level runs, faults nowhere, and leaves its arguments unchanged. -/
theorem frame_kernel : Cert.frame_Kernel := fun m ρ _ => Cert.Kernel.Hand.frame (F := Bits) m ρ

/-- The same at the ideal level. -/
theorem frame_kernelIdeal : Cert.frame_KernelIdeal := fun m ρ _ => Cert.KernelIdeal.Hand.frame (F := Ideal) m ρ

/-- The reference is host code alone: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the layer's output of the (finite) arguments: the kernel's result is that formula, and the
    reference's composed term equals it by reassociating the two matrix products over the reals. -/
theorem algebraic : Cert.algebraic_KernelIdeal_ReferenceIdeal := by
  intro m ρ m' ρ' hpre hagree
  refine ⟨fun c => Cert.Spec.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c).1.trans (Cert.KernelIdeal.Hand.resultOf_eq m ρ c),
        (h c).2.1.trans (Cert.KernelIdeal.Hand.Vr_arg0 m ρ c), (h c).2.2.1.trans (Cert.KernelIdeal.Hand.Vr_arg1 m ρ c),
        (h c).2.2.2.1.trans (Cert.KernelIdeal.Hand.Vr_arg2 m ρ c), (h c).2.2.2.2.trans (Cert.KernelIdeal.Hand.Vr_arg3 m ρ c)⟩)
      (Cert.KernelIdeal.Hand.run_main (F := Ideal) m ρ)
  · refine (θ_run Cert.ReferenceIdeal.defs _ _).mono (fun _ h c => ⟨?_, (h c).2⟩) (Cert.ReferenceIdeal.Value.run (F := Ideal) m' ρ')
    obtain ⟨hx, hA, hW, -⟩ := Cert.FiniteInputs.finite_of_pre _ _ _ _ (hpre c)
    rw [(h c).1, Cert.ReferenceIdeal.Read.val_main_v6_eq, (hagree c).1, (hagree c).2.1, (hagree c).2.2.1, (hagree c).2.2.2]
    exact Cert.RefSpec.ref_eq_gcn _ _ _ _ hx hA hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
